-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S1x5120 .f32 .bf16
  ∧ IdealRules.truncf_extf.Statement Cert.KernelIdeal.S1x2048 .f32 .bf16
  ∧ IdealRules.truncf_extf.Statement Cert.KernelIdeal.S8x128 .f32 .bf16
  ∧ IdealRules.truncf_extf.Statement Cert.KernelIdeal.S8x128 .f32 .bf16
  ∧ IdealRules.truncf_extf.Statement Cert.KernelIdeal.S8x128 .f32 .bf16
  ∧ IdealRules.truncf_extf.Statement Cert.KernelIdeal.S8x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000 : Shape := ⟨1, ![5000]⟩
abbrev S2000 : Shape := ⟨1, ![2000]⟩
abbrev S1 : Shape := ⟨1, ![1]⟩
abbrev S10000000 : Shape := ⟨1, ![10000000]⟩
abbrev S_ : Shape := ⟨0, ![]⟩

class Facts : Prop where
  bcast_S_S5000 : S_.BroadcastsInDim S5000 (![] : Fin 0 → Fin S5000.rank)
  reducesTo_S5000_S_d0 : S5000.ReducesTo [0] S_
  h_S_ : 0 < S_.numel
  bcast_S_S2000 : S_.BroadcastsInDim S2000 (![] : Fin 0 → Fin S2000.rank)
  reducesTo_S2000_S_d0 : S2000.ReducesTo [0] S_
  bcast_S_S1 : S_.BroadcastsInDim S1 (![] : Fin 0 → Fin S1.rank)
  reducesTo_S1_S_d0 : S1.ReducesTo [0] S_
  bcast_S_S10000000 : S_.BroadcastsInDim S10000000 (![] : Fin 0 → Fin S10000000.rank)
  reducesTo_S10000000_S_d0 : S10000000.ReducesTo [0] S_

variable [Facts]

def fn_part2 {F : FTy → Type} [FloatOps F] (main_arg6 : IVec S10000000 32) (main_v31 : IVec S_ 1) (main_v32 : IVec S10000000 32) : IVec S_ 1 :=
  let main_v33 : IVec S10000000 1 := cmpi .sge main_arg6 main_v32
  let main_c_13 : IVec S_ 1 := constantI S_ 1 1#1
  let main_v34 : IVec S_ 1 := (fun x v => Host.reduce IntOp.andi x v reducesTo_S10000000_S_d0 h_S_) main_v33 main_c_13
  let main_v35 : IVec S_ 1 := andi main_v31 main_v34
  let main_c_14 : IVec S_ 32 := constantI S_ 32 2000#32
  let main_v36 : IVec S10000000 32 := broadcastInDim S10000000 ![] bcast_S_S10000000 main_c_14
  let main_v37 : IVec S10000000 1 := cmpi .slt main_arg6 main_v36
  let main_c_15 : IVec S_ 1 := constantI S_ 1 1#1
  let main_v38 : IVec S_ 1 := (fun x v => Host.reduce IntOp.andi x v reducesTo_S10000000_S_d0 h_S_) main_v37 main_c_15
  let main_v39 : IVec S_ 1 := andi main_v35 main_v38
  main_v39

def fn_part1 {F : FTy → Type} [FloatOps F] (main_arg4 : FVec F S10000000 .f32) (main_arg5 : IVec S10000000 32) (main_arg6 : IVec S10000000 32) (main_v13 : IVec S_ 1) (main_v16 : IVec S10000000 1) : IVec S_ 1 :=
  let main_c_5 : IVec S_ 1 := constantI S_ 1 1#1
  let main_v17 : IVec S_ 1 := (fun x v => Host.reduce IntOp.andi x v reducesTo_S10000000_S_d0 h_S_) main_v16 main_c_5
  let main_v18 : IVec S_ 1 := andi main_v13 main_v17
  let main_v19 : FVec F S10000000 .f32 := Host.absf main_arg4
  let main_cst_6 : FVec F S_ .f32 := constant S_ .f32 0x7F800000#32
  let main_v20 : FVec F S10000000 .f32 := broadcastInDim S10000000 ![] bcast_S_S10000000 main_cst_6
  let main_v21 : IVec S10000000 1 := cmpf .olt main_v19 main_v20
  let main_c_7 : IVec S_ 1 := constantI S_ 1 1#1
  let main_v22 : IVec S_ 1 := (fun x v => Host.reduce IntOp.andi x v reducesTo_S10000000_S_d0 h_S_) main_v21 main_c_7
  let main_v23 : IVec S_ 1 := andi main_v18 main_v22
  let main_c_8 : IVec S_ 32 := constantI S_ 32 0#32
  let main_v24 : IVec S10000000 32 := broadcastInDim S10000000 ![] bcast_S_S10000000 main_c_8
  let main_v25 : IVec S10000000 1 := cmpi .sge main_arg5 main_v24
  let main_c_9 : IVec S_ 1 := constantI S_ 1 1#1
  let main_v26 : IVec S_ 1 := (fun x v => Host.reduce IntOp.andi x v reducesTo_S10000000_S_d0 h_S_) main_v25 main_c_9
  let main_v27 : IVec S_ 1 := andi main_v23 main_v26
  let main_c_10 : IVec S_ 32 := constantI S_ 32 5000#32
  let main_v28 : IVec S10000000 32 := broadcastInDim S10000000 ![] bcast_S_S10000000 main_c_10
  let main_v29 : IVec S10000000 1 := cmpi .slt main_arg5 main_v28
  let main_c_11 : IVec S_ 1 := constantI S_ 1 1#1
  let main_v30 : IVec S_ 1 := (fun x v => Host.reduce IntOp.andi x v reducesTo_S10000000_S_d0 h_S_) main_v29 main_c_11
  let main_v31 : IVec S_ 1 := andi main_v27 main_v30
  let main_c_12 : IVec S_ 32 := constantI S_ 32 0#32
  let main_v32 : IVec S10000000 32 := broadcastInDim S10000000 ![] bcast_S_S10000000 main_c_12
  fn_part2 (F := F) main_arg6 main_v31 main_v32

def fn {F : FTy → Type} [FloatOps F] (main_arg0 : FVec F S5000 .f32) (main_arg1 : FVec F S2000 .f32) (main_arg2 : FVec F S1 .f32) (main_arg3 : FVec F S10000000 .f32) (main_arg4 : FVec F S10000000 .f32) (main_arg5 : IVec S10000000 32) (main_arg6 : IVec S10000000 32) : IVec S_ 1 :=
  let main_v0 : FVec F S5000 .f32 := Host.absf main_arg0
  let main_cst : FVec F S_ .f32 := constant S_ .f32 0x7F800000#32
  let main_v1 : FVec F S5000 .f32 := broadcastInDim S5000 ![] bcast_S_S5000 main_cst
  let main_v2 : IVec S5000 1 := cmpf .olt main_v0 main_v1
  let main_c : IVec S_ 1 := constantI S_ 1 1#1
  let main_v3 : IVec S_ 1 := (fun x v => Host.reduce IntOp.andi x v reducesTo_S5000_S_d0 h_S_) main_v2 main_c
  let main_v4 : FVec F S2000 .f32 := Host.absf main_arg1
  let main_cst_0 : FVec F S_ .f32 := constant S_ .f32 0x7F800000#32
  let main_v5 : FVec F S2000 .f32 := broadcastInDim S2000 ![] bcast_S_S2000 main_cst_0
  let main_v6 : IVec S2000 1 := cmpf .olt main_v4 main_v5
  let main_c_1 : IVec S_ 1 := constantI S_ 1 1#1
  let main_v7 : IVec S_ 1 := (fun x v => Host.reduce IntOp.andi x v reducesTo_S2000_S_d0 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S10000000 .f32 := Host.absf main_arg3
  let main_cst_4 : FVec F S_ .f32 := constant S_ .f32 0x7F800000#32
  let main_v15 : FVec F S10000000 .f32 := broadcastInDim S10000000 ![] bcast_S_S10000000 main_cst_4
  let main_v16 : IVec S10000000 1 := cmpf .olt main_v14 main_v15
  fn_part1 (F := F) main_arg4 main_arg5 main_arg6 main_v13 main_v16
-- ==== Kernel.lean ====
abbrev S5000 : Shape := ⟨1, ![5000]⟩
abbrev S2000 : Shape := ⟨1, ![2000]⟩
abbrev S1 : Shape := ⟨1, ![1]⟩
abbrev S10000000 : Shape := ⟨1, ![10000000]⟩
abbrev S_ : Shape := ⟨0, ![]⟩
abbrev S5120 : Shape := ⟨1, ![5120]⟩
abbrev S1x5120 : Shape := ⟨2, ![1, 5120]⟩
abbrev S2048 : Shape := ⟨1, ![2048]⟩
abbrev S1x2048 : Shape := ⟨2, ![1, 2048]⟩
abbrev S10002432 : Shape := ⟨1, ![10002432]⟩
abbrev S78144x128 : Shape := ⟨2, ![78144, 128]⟩
abbrev S78144x128x1 : Shape := ⟨3, ![78144, 128, 1]⟩
abbrev S2x1x1 : Shape := ⟨3, ![2, 1, 1]⟩
abbrev S32x128 : Shape := ⟨2, ![32, 128]⟩
abbrev S32x128x1 : Shape := ⟨3, ![32, 128, 1]⟩
abbrev S1x1x1 : Shape := ⟨3, ![1, 1, 1]⟩
abbrev S1x1 : Shape := ⟨2, ![1, 1]⟩
abbrev S1x1x5120 : Shape := ⟨3, ![1, 1, 5120]⟩
abbrev S1x1x2048 : Shape := ⟨3, ![1, 1, 2048]⟩
abbrev S8x128x1 : Shape := ⟨3, ![8, 128, 1]⟩
abbrev S8x128 : Shape := ⟨2, ![8, 128]⟩
abbrev S8x128x5120 : Shape := ⟨3, ![8, 128, 5120]⟩
abbrev S8x128x2048 : Shape := ⟨3, ![8, 128, 2048]⟩
abbrev S8 : Shape := ⟨1, ![8]⟩
abbrev S8x1 : Shape := ⟨2, ![8, 1]⟩
abbrev S2 : Shape := ⟨1, ![2]⟩

abbrev nBuf : Space → Nat
  | .hbm => 42
  | .vmem => 13
  | .smem => 0
  | _ => 0

abbrev bufTy : (tb : Table) → Fin (tcTables nBuf tb) → BufTy
  | .hbm, ⟨0, _⟩ => ⟨S5000, .f32⟩
  | .hbm, ⟨1, _⟩ => ⟨S2000, .f32⟩
  | .hbm, ⟨2, _⟩ => ⟨S1, .f32⟩
  | .hbm, ⟨3, _⟩ => ⟨S10000000, .f32⟩
  | .hbm, ⟨4, _⟩ => ⟨S10000000, .f32⟩
  | .hbm, ⟨5, _⟩ => ⟨S10000000, .i32⟩
  | .hbm, ⟨6, _⟩ => ⟨S10000000, .i32⟩
  | .hbm, ⟨7, _⟩ => ⟨S_, .f32⟩
  | .hbm, ⟨8, _⟩ => ⟨S5000, .f32⟩
  | .hbm, ⟨9, _⟩ => ⟨S5000, .f32⟩
  | .hbm, ⟨10, _⟩ => ⟨S_, .i32⟩
  | .hbm, ⟨11, _⟩ => ⟨S_, .f32⟩
  | .hbm, ⟨12, _⟩ => ⟨S5120, .f32⟩
  | .hbm, ⟨13, _⟩ => ⟨S1x5120, .f32⟩
  | .hbm, ⟨14, _⟩ => ⟨S_, .f32⟩
  | .hbm, ⟨15, _⟩ => ⟨S_, .f32⟩
  | .hbm, ⟨16, _⟩ => ⟨S2000, .f32⟩
  | .hbm, ⟨17, _⟩ => ⟨S2000, .f32⟩
  | .hbm, ⟨18, _⟩ => ⟨S_, .i32⟩
  | .hbm, ⟨19, _⟩ => ⟨S_, .f32⟩
  | .hbm, ⟨20, _⟩ => ⟨S2048, .f32⟩
  | .hbm, ⟨21, _⟩ => ⟨S1x2048, .f32⟩
  | .hbm, ⟨22, _⟩ => ⟨S_, .f32⟩
  | .hbm, ⟨23, _⟩ => ⟨S_, .f32⟩
  | .hbm, ⟨24, _⟩ => ⟨S10002432, .f32⟩
  | .hbm, ⟨25, _⟩ => ⟨S_, .f32⟩
  | .hbm, ⟨26, _⟩ => ⟨S_, .f32⟩
  | .hbm, ⟨27, _⟩ => ⟨S10002432, .f32⟩
  | .hbm, ⟨28, _⟩ => ⟨S_, .i32⟩
  | .hbm, ⟨29, _⟩ => ⟨S_, .i32⟩
  | .hbm, ⟨30, _⟩ => ⟨S10002432, .i32⟩
  | .hbm, ⟨31, _⟩ => ⟨S_, .i32⟩
  | .hbm, ⟨32, _⟩ => ⟨S_, .i32⟩
  | .hbm, ⟨33, _⟩ => ⟨S10002432, .i32⟩
  | .hbm, ⟨34, _⟩ => ⟨S78144x128, .f32⟩
  | .hbm, ⟨35, _⟩ => ⟨S78144x128, .f32⟩
  | .hbm, ⟨36, _⟩ => ⟨S78144x128x1, .i32⟩
  | .hbm, ⟨37, _⟩ => ⟨S78144x128x1, .i32⟩
  | .hbm, ⟨38, _⟩ => ⟨S2x1x1, .f32⟩
  | .hbm, ⟨39, _⟩ => ⟨S2, .f32⟩
  | .hbm, ⟨40, _⟩ => ⟨S_, .f32⟩
  | .hbm, ⟨41, _⟩ => ⟨S_, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128x1, .i32⟩
  | .local _ .vmem, ⟨5, _⟩ => ⟨S32x128x1, .i32⟩
  | .local _ .vmem, ⟨6, _⟩ => ⟨S32x128x1, .i32⟩
  | .local _ .vmem, ⟨7, _⟩ => ⟨S32x128x1, .i32⟩
  | .local _ .vmem, ⟨8, _⟩ => ⟨S1x5120, .f32⟩
  | .local _ .vmem, ⟨9, _⟩ => ⟨S1x2048, .f32⟩
  | .local _ .vmem, ⟨10, _⟩ => ⟨S1x1x1, .f32⟩
  | .local _ .vmem, ⟨11, _⟩ => ⟨S1x1x1, .f32⟩
  | .local _ .vmem, ⟨12, _⟩ => ⟨S1x1, .f32⟩
  | _, _ => ⟨S5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_call2_v0 : Ref sig .tc := ⟨.hbm, 23, rfl⟩
abbrev main_v10 : Ref sig .tc := ⟨.hbm, 24, rfl⟩
abbrev main_cst_2 : Ref sig .tc := ⟨.hbm, 25, rfl⟩
abbrev main_call3_v0 : Ref sig .tc := ⟨.hbm, 26, rfl⟩
abbrev main_v11 : Ref sig .tc := ⟨.hbm, 27, rfl⟩
abbrev main_c_3 : Ref sig .tc := ⟨.hbm, 28, rfl⟩
abbrev main_call4_v0 : Ref sig .tc := ⟨.hbm, 29, rfl⟩
abbrev main_v12 : Ref sig .tc := ⟨.hbm, 30, rfl⟩
abbrev main_c_4 : Ref sig .tc := ⟨.hbm, 31, rfl⟩
abbrev main_call5_v0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 1221], ![false, false]⟩

@[reducible] def k0_t1_loop : Scf.Loop 32 :=
  let c0_i32_4 : BitVec 32 := 0#32
  let c4_i32 : BitVec 32 := 4#32
  let v22 : BitVec 32 := Scalar.addi c0_i32_4 c4_i32
  let c1_i32 : BitVec 32 := 1#32
  ⟨c0_i32_4, v22, c1_i32⟩
def k0_mult1 (k0_t1 : Fin k0_t1_loop.trips) : BitVec 32 :=
  let c0_i32_4 : BitVec 32 := 0#32
  let c1_i32 : BitVec 32 := 1#32
  let arg10 : BitVec 32 := Scf.iv c0_i32_4 c1_i32 k0_t1
  let c8_i32 : BitVec 32 := 8#32
  let v32 : BitVec 32 := Scalar.muli arg10 c8_i32
  v32
def k0_off1 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let c8_i32 : BitVec 32 := 8#32
  let v32 : BitVec 32 := Scalar.muli arg10 c8_i32
  let v33 : BitVec 32 := v32
  let v34 : Index := Scalar.indexCast v33
  let c0_11 : Index := 0#32
  let c0_12 : Index := 0#32
  ![v34.toNat, 0, 0]
def k0_off2 (k0_t1 : Fin k0_t1_loop.trips) : Fin 2 → Nat :=
  let c0_i32_4 : BitVec 32 := 0#32
  let c1_i32 : BitVec 32 := 1#32
  let arg10 : BitVec 32 := Scf.iv c0_i32_4 c1_i32 k0_t1
  let c8_i32 : BitVec 32 := 8#32
  let v32 : BitVec 32 := Scalar.muli arg10 c8_i32
  let v33 : BitVec 32 := v32
  let v40 : Index := Scalar.indexCast v33
  let c0_15 : Index := 0#32
  ![v40.toNat, 0]
def k0_cond2 (i : grid0.Coords) : BitVec 1 :=
  let arg1 : BitVec 32 := BitVec.ofNat 32 (i 1).val
  let c1220_i32 : BitVec 32 := 1220#32
  let v29 : BitVec 1 := Scalar.cmpi .eq arg1 c1220_i32
  let v30 : BitVec 32 := Scalar.extui v29
  let c0_i32_10 : BitVec 32 := 0#32
  let v31 : BitVec 1 := Scalar.cmpi .ne v30 c0_i32_10
  v31

def cc0_transform_0 (i : grid0.Coords) : Fin 2 → Nat :=
  let arg0 : BitVec 32 := BitVec.ofNat 32 (i 0).val
  let arg1 : BitVec 32 := BitVec.ofNat 32 (i 1).val
  let c1221_i32 : BitVec 32 := 1221#32
  let v0 : BitVec 32 := Scalar.muli arg0 c1221_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1221_i32 : BitVec 32 := 1221#32
  let v0 : BitVec 32 := Scalar.muli arg0 c1221_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c1221_i32 : BitVec 32 := 1221#32
  let v0 : BitVec 32 := Scalar.muli arg0 c1221_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1221_i32 : BitVec 32 := 1221#32
  let v0 : BitVec 32 := Scalar.muli arg0 c1221_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x128x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S1_S_ : S1.ShapeCasts S_
  bcast_S_S5000 : S_.BroadcastsInDim S5000 (![] : Fin 0 → Fin S5000.rank)
  pads_S5000_S5120_01200 : S5000.Pads (![0] : Fin 1 → Nat) ![120] ![0] S5120
  h_S_ : 0 < S_.numel
  shapeCasts_S5120_S1x5120 : S5120.ShapeCasts S1x5120
  bcast_S_S2000 : S_.BroadcastsInDim S2000 (![] : Fin 0 → Fin S2000.rank)
  pads_S2000_S2048_0480 : S2000.Pads (![0] : Fin 1 → Nat) ![48] ![0] S2048
  shapeCasts_S2048_S1x2048 : S2048.ShapeCasts S1x2048
  pads_S10000000_S10002432_024320 : S10000000.Pads (![0] : Fin 1 → Nat) ![2432] ![0] S10002432
  shapeCasts_S10002432_S78144x128 : S10002432.ShapeCasts S78144x128
  shapeCasts_S10002432_S78144x128x1 : S10002432.ShapeCasts S78144x128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  iota_S1x1x5120_d2_w32 : S1x1x5120.Iotas .tc 32 [2]
  iota_S1x1x2048_d2_w32 : S1x1x2048.Iotas .tc 32 [2]
  inb_S1x5120_S1x5120_0_0 : ∀ a, (![0, 0] : Fin 2 → Nat) a + S1x5120.size a ≤ S1x5120.size a
  h_S1x5120 : 0 < S1x5120.numel
  shapeCasts_S1x5120_S1x5120 : S1x5120.ShapeCasts S1x5120
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  bitsLt_bf16_f32 : FTy.bits .bf16 < FTy.bits .f32
  shapeCasts_S1x5120_S1x1x5120 : S1x5120.ShapeCasts S1x1x5120
  shapeCasts_S1x2048_S1x1x2048 : S1x2048.ShapeCasts S1x1x2048
  h_S8x128x1 : 0 < S8x128x1.numel
  shapeCasts_S8x128x1_S8x128x1 : S8x128x1.ShapeCasts S8x128x1
  h_S8x128 : 0 < S8x128.numel
  shapeCasts_S8x128_S8x128 : S8x128.ShapeCasts S8x128
  broadcasts_S8x128x1_S8x128x5120 : S8x128x1.Broadcasts S8x128x5120
  broadcasts_S1x1x5120_S8x128x5120 : S1x1x5120.Broadcasts S8x128x5120
  natLt_1_32 : 1 < 32
  reduces_S8x128x5120_S8x128 : S8x128x5120.Reduces [2] S8x128
  broadcasts_S8x128x1_S8x128x2048 : S8x128x1.Broadcasts S8x128x2048
  broadcasts_S1x1x2048_S8x128x2048 : S1x1x2048.Broadcasts S8x128x2048
  reduces_S8x128x2048_S8x128 : S8x128x2048.Reduces [2] S8x128
  reduces_S8x128_S8 : S8x128.Reduces [1] S8
  shapeCasts_S8_S8x1 : S8.ShapeCasts S8x1
  reduces_S8x1_S1 : S8x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S2x1x1_S2 : S2x1x1.ShapeCasts S2
  reducesTo_S2_S_d0 : S2.ReducesTo [0] S_
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x128x1.size a ≤ S32x128x1.size a
  k0_off2_inb : ∀ k0_t1 : Fin k0_t1_loop.trips, ∀ a, (k0_off2 k0_t1) a + S8x128.size a ≤ S32x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S78144x128.size a
  hwx0_0 : ∀ i : grid0.Coords, EltTy.bits .f32 = 32 ∨ (Rect.block (s := S78144x128) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S78144x128.size a
  hwx0_1 : ∀ i : grid0.Coords, EltTy.bits .f32 = 32 ∨ (Rect.block (s := S78144x128) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128x1.size a ≤ S78144x128x1.size a
  hwx0_2 : ∀ i : grid0.Coords, EltTy.bits .i32 = 32 ∨ (Rect.block (s := S78144x128x1) S32x128x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128x1.size a ≤ S78144x128x1.size a
  hwx0_3 : ∀ i : grid0.Coords, EltTy.bits .i32 = 32 ∨ (Rect.block (s := S78144x128x1) S32x128x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x5120.size a ≤ S1x5120.size a
  hwx0_4 : ∀ i : grid0.Coords, EltTy.bits .f32 = 32 ∨ (Rect.block (s := S1x5120) S1x5120.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)

variable [Facts₀]

abbrev win0_0 : Pipeline.Window sig grid0 :=
  Pipeline.Window.ofSpec (Memref.whole main_v14) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S32x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S32x128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x5120.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S5000 : Shape := ⟨1, ![5000]⟩
abbrev S2000 : Shape := ⟨1, ![2000]⟩
abbrev S1 : Shape := ⟨1, ![1]⟩
abbrev S10000000 : Shape := ⟨1, ![10000000]⟩
abbrev S_ : Shape := ⟨0, ![]⟩
abbrev S10000000x1 : Shape := ⟨2, ![10000000, 1]⟩

abbrev nBuf : Space → Nat
  | .hbm => 57
  | .vmem => 0
  | .smem => 0
  | _ => 0

abbrev bufTy : (tb : Table) → Fin (tcTables nBuf tb) → BufTy
  | .hbm, ⟨0, _⟩ => ⟨S5000, .f32⟩
  | .hbm, ⟨1, _⟩ => ⟨S2000, .f32⟩
  | .hbm, ⟨2, _⟩ => ⟨S1, .f32⟩
  | .hbm, ⟨3, _⟩ => ⟨S10000000, .f32⟩
  | .hbm, ⟨4, _⟩ => ⟨S10000000, .f32⟩
  | .hbm, ⟨5, _⟩ => ⟨S10000000, .i32⟩
  | .hbm, ⟨6, _⟩ => ⟨S10000000, .i32⟩
  | .hbm, ⟨7, _⟩ => ⟨S_, .i32⟩
  | .hbm, ⟨8, _⟩ => ⟨S10000000, .i32⟩
  | .hbm, ⟨9, _⟩ => ⟨S10000000, .i1⟩
  | .hbm, ⟨10, _⟩ => ⟨S_, .i32⟩
  | .hbm, ⟨11, _⟩ => ⟨S10000000, .i32⟩
  | .hbm, ⟨12, _⟩ => ⟨S10000000, .i32⟩
  | .hbm, ⟨13, _⟩ => ⟨S10000000, .i32⟩
  | .hbm, ⟨14, _⟩ => ⟨S10000000x1, .i32⟩
  | .hbm, ⟨15, _⟩ => ⟨S10000000, .f32⟩
  | .hbm, ⟨16, _⟩ => ⟨S_, .i32⟩
  | .hbm, ⟨17, _⟩ => ⟨S10000000, .i32⟩
  | .hbm, ⟨18, _⟩ => ⟨S10000000, .i1⟩
  | .hbm, ⟨19, _⟩ => ⟨S_, .i32⟩
  | .hbm, ⟨20, _⟩ => ⟨S10000000, .i32⟩
  | .hbm, ⟨21, _⟩ => ⟨S10000000, .i32⟩
  | .hbm, ⟨22, _⟩ => ⟨S10000000, .i32⟩
  | .hbm, ⟨23, _⟩ => ⟨S10000000x1, .i32⟩
  | .hbm, ⟨24, _⟩ => ⟨S10000000, .f32⟩
  | .hbm, ⟨25, _⟩ => ⟨S_, .f32⟩
  | .hbm, ⟨26, _⟩ => ⟨S10000000, .f32⟩
  | .hbm, ⟨27, _⟩ => ⟨S10000000, .f32⟩
  | .hbm, ⟨28, _⟩ => ⟨S_, .f32⟩
  | .hbm, ⟨29, _⟩ => ⟨S_, .f32⟩
  | .hbm, ⟨30, _⟩ => ⟨S10000000, .f32⟩
  | .hbm, ⟨31, _⟩ => ⟨S10000000, .f32⟩
  | .hbm, ⟨32, _⟩ => ⟨S10000000, .f32⟩
  | .hbm, ⟨33, _⟩ => ⟨S10000000, .f32⟩
  | .hbm, ⟨34, _⟩ => ⟨S10000000, .f32⟩
  | .hbm, ⟨35, _⟩ => ⟨S_, .f32⟩
  | .hbm, ⟨36, _⟩ => ⟨S10000000, .f32⟩
  | .hbm, ⟨37, _⟩ => ⟨S10000000, .f32⟩
  | .hbm, ⟨38, _⟩ => ⟨S_, .f32⟩
  | .hbm, ⟨39, _⟩ => ⟨S10000000, .f32⟩
  | .hbm, ⟨40, _⟩ => ⟨S10000000, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S10000000, .f32⟩
  | .hbm, ⟨45, _⟩ => ⟨S10000000, .f32⟩
  | .hbm, ⟨46, _⟩ => ⟨S_, .f32⟩
  | .hbm, ⟨47, _⟩ => ⟨S10000000, .f32⟩
  | .hbm, ⟨48, _⟩ => ⟨S10000000, .f32⟩
  | .hbm, ⟨49, _⟩ => ⟨S10000000, .f32⟩
  | .hbm, ⟨50, _⟩ => ⟨S10000000, .f32⟩
  | .hbm, ⟨51, _⟩ => ⟨S10000000, .f32⟩
  | .hbm, ⟨52, _⟩ => ⟨S10000000, .f32⟩
  | .hbm, ⟨53, _⟩ => ⟨S10000000, .f32⟩
  | .hbm, ⟨54, _⟩ => ⟨S10000000, .f32⟩
  | .hbm, ⟨55, _⟩ => ⟨S_, .f32⟩
  | .hbm, ⟨56, _⟩ => ⟨S_, .f32⟩
  | _, _ => ⟨S5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_cst_6 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩

abbrev nD : Nat := 1
abbrev τ : Topo := Topo.v7x

variable {F : FTy → Type} [FloatOps F]

class Facts₀ : Prop where
  bcast_S_S10000000 : S_.BroadcastsInDim S10000000 (![] : Fin 0 → Fin S10000000.rank)
  bcast_S10000000_S10000000x1_0 : S10000000.BroadcastsInDim S10000000x1 (![0] : Fin 1 → Fin S10000000x1.rank)
  shapeCasts_S1_S_ : S1.ShapeCasts S_
  reducesTo_S10000000_S_d0 : S10000000.ReducesTo [0] S_
  h_S_ : 0 < S_.numel
  gather_S5000_S10000000x1_S10000000_n_0_n_n_0_1_1_wf : GatherDims.WF S5000 S10000000x1 S10000000 [] [0] [] [0] [] 1 ![1]
  gather_S2000_S10000000x1_S10000000_n_0_n_n_0_1_1_wf : GatherDims.WF S2000 S10000000x1 S10000000 [] [0] [] [0] [] 1 ![1]

variable [Facts₀]

def gather_S5000_S10000000x1_S10000000_n_0_n_n_0_1_1 : GatherDims S5000 S10000000x1 S10000000 where
  offsetDims := []
  collapsedSliceDims := [0]
  operandBatchingDims := []
  startIndicesBatchingDims := []
  startIndexMap := [0]
  indexVectorDim := 1
  sliceSizes := ![1]
  wf := gather_S5000_S10000000x1_S10000000_n_0_n_n_0_1_1_wf
def gather_S2000_S10000000x1_S10000000_n_0_n_n_0_1_1 : GatherDims S2000 S10000000x1 S10000000 where
  offsetDims := []
  collapsedSliceDims := [0]
  operandBatchingDims := []
  startIndicesBatchingDims := []
  startIndexMap := [0]
  indexVectorDim := 1
  sliceSizes := ![1]
  wf := gather_S2000_S10000000x1_S10000000_n_0_n_n_0_1_1_wf

class Facts : Prop extends Facts₀ where

variable [Facts]
-- ==== Proof.Pre.lean ====
/-
  What the precondition says, entry by entry: the two strength tables and the mixing weight hold real
  numbers, and every batter word is below 5000 and every pitcher word below 2000 (as unsigned numbers: a
  word that is at least zero and below the bound as a signed number is below it as an unsigned one).
-/
import proofs.«427744_j82815559401913_4_alg».proof.Pre_finite_inputs
import proofs.«427744_j82815559401913_4_alg».proof.Proof.Gen.Pre_finite_inputs
import Idealize.ShloMosaic.Lib.ReduceAll
import Idealize.ShloMosaic.Lib.StableHlo.Predicate
import Idealize.ShloMosaic.Lib.ValueIdx

noncomputable section

namespace Cert.LogLik

open Idealize.ShloMosaic Cert.Pre_finite_inputs

/-- The precondition's content: real entries in both tables and the weight, and words inside their tables. -/
structure InDomain (v1 : FVec Ideal S5000 .f32) (v2 : FVec Ideal S2000 .f32) (w : FVec Ideal S1 .f32)
    (b p : IVec S10000000 32) : Prop where
  v1_real : ∀ i, v1 i ≠ ⊤ ∧ v1 i ≠ ⊥
  v2_real : ∀ i, v2 i ≠ ⊤ ∧ v2 i ≠ ⊥
  w_real : ∀ i, w i ≠ ⊤ ∧ w i ≠ ⊥
  b_lt : ∀ i, (b i).toNat < 5000
  p_lt : ∀ i, (p i).toNat < 2000

/-- The and of two one-bit vectors, read at an index, is the and of the two bits. -/
private theorem vandi_eq_one {s : Shape} (x y : IVec s 1) (i : s.Idx) :
    andi x y i = 1#1 ↔ x i = 1#1 ∧ y i = 1#1 := IntOp.andi_eq_one

/-- The pattern 0x7F800000 (sign clear, exponent all ones, fraction zero) denotes +∞. -/
private theorem inf_bits : Ideal.ofBits .f32 0x7F800000#32 = (⊤ : EReal) := by
  simp [Ideal.ofBits, Ideal.ieee]

/-- An extended real whose absolute value max x (−x) lies below +∞ is neither infinity:
    at x = +∞ the maximum is +∞, and at x = −∞ its negation is. -/
private theorem real_of_abs_lt_top (x : EReal) (h : max x (-x) < ⊤) : x ≠ ⊤ ∧ x ≠ ⊥ := by
  constructor
  · rintro rfl
    simp at h
  · rintro rfl
    simp at h

/-- One entry of a float table: the comparison |x| < +∞ holding at that entry says the entry is real. -/
private theorem real_entry {s : Shape} (x : FVec Ideal s .f32) (hb : S_.BroadcastsInDim s (![] : Fin 0 → Fin s.rank))
    (i : s.Idx)
    (h : cmpf .olt (Host.absf x) (broadcastInDim s ![] hb (constant S_ .f32 0x7F800000#32)) i = 1#1) :
    x i ≠ ⊤ ∧ x i ≠ ⊥ := by
  have hc : broadcastInDim s ![] hb (constant (F := Ideal) S_ .f32 0x7F800000#32) i = (⊤ : EReal) := by
    rw [StableHlo.Predicate.bcast_scalar hb (by decide)]
    exact inf_bits
  have h' : Ideal.cmp .olt (max (x i) (-(x i)))
      (broadcastInDim s ![] hb (constant (F := Ideal) S_ .f32 0x7F800000#32) i) = 1#1 := h
  rw [hc] at h'
  apply real_of_abs_lt_top
  simpa [Ideal.cmp, StableHlo.Predicate.ofBool_eq_one_iff] using h'

/-- A word that is at least zero and below a bound n, both read signed, is below n read unsigned:
    a nonnegative signed reading is the unsigned one. -/
private theorem toNat_lt_of_signed {w c : BitVec 32} {n : Nat} (hc : c.toInt = n)
    (h0 : IntOp.cmpi .sge w 0#32 = 1#1) (h1 : IntOp.cmpi .slt w c = 1#1) : w.toNat < n := by
  rw [IntOp.cmpi_sge] at h0
  rw [IntOp.cmpi_slt, hc] at h1
  have hz : (0#32 : BitVec 32).toInt = 0 := by decide
  rw [hz] at h0
  rw [BitVec.toInt_eq_toNat_cond] at h0 h1
  have := w.isLt
  split at h0 <;> omega

/-- One entry of a word table: the two comparisons against the broadcast constants 0 and c bound the word. -/
private theorem word_entry {s : Shape} (x : IVec s 32) (hb : S_.BroadcastsInDim s (![] : Fin 0 → Fin s.rank))
    (i : s.Idx) (c : BitVec 32) (n : Nat) (hc : c.toInt = n)
    (h0 : cmpi .sge x (broadcastInDim s ![] hb (constantI S_ 32 0#32)) i = 1#1)
    (h1 : cmpi .slt x (broadcastInDim s ![] hb (constantI S_ 32 c)) i = 1#1) : (x i).toNat < n := by
  have e0 : broadcastInDim s ![] hb (constantI S_ 32 0#32) i = 0#32 := by
    rw [StableHlo.Predicate.bcast_scalar hb (by decide)]; rfl
  have e1 : broadcastInDim s ![] hb (constantI S_ 32 c) i = c := by
    rw [StableHlo.Predicate.bcast_scalar hb (by decide)]; rfl
  have h0' : IntOp.cmpi .sge (x i) (broadcastInDim s ![] hb (constantI S_ 32 0#32) i) = 1#1 := h0
  have h1' : IntOp.cmpi .slt (x i) (broadcastInDim s ![] hb (constantI S_ 32 c) i) = 1#1 := h1
  rw [e0] at h0'
  rw [e1] at h1'
  exact toNat_lt_of_signed hc h0' h1'

variable [Cert.Pre_finite_inputs.Facts]

/-- The printed precondition, all ones, gives the domain facts. -/
theorem inDomain_of_pre (a0 : FVec Ideal S5000 .f32) (a1 : FVec Ideal S2000 .f32) (a2 : FVec Ideal S1 .f32)
    (a3 a4 : FVec Ideal S10000000 .f32) (a5 a6 : IVec S10000000 32)
    (h : Cert.Pre_finite_inputs.fn (F := Ideal) a0 a1 a2 a3 a4 a5 a6 = fun _ => 1#1) :
    InDomain a0 a1 a2 a5 a6 := by
  -- the rank-0 result has a single index, so an all-reduction that is 1 there had a 1 at every entry
  haveI : Subsingleton S_.Idx := ⟨fun a b => funext fun d => d.elim0⟩
  have h0 := congrFun h ValueIdx.ix0
  dsimp only [Cert.Pre_finite_inputs.fn, fn_part1, fn_part2] at h0
  -- the nine conjuncts: |a0|, |a1|, |a2|, |a3|, |a4| below +∞; 0 ≤ a5 < 5000; 0 ≤ a6 < 2000
  simp only [vandi_eq_one] at h0
  obtain ⟨⟨⟨⟨⟨⟨⟨⟨h1, h2⟩, h3⟩, -⟩, -⟩, h6⟩, h7⟩, h8⟩, h9⟩ := h0
  refine ⟨fun i => ?_, fun i => ?_, fun i => ?_, fun i => ?_, fun i => ?_⟩
  · exact real_entry a0 _ i (Host.reduce_andi_all _ _ _ _ _ h1 i)
  · exact real_entry a1 _ i (Host.reduce_andi_all _ _ _ _ _ h2 i)
  · exact real_entry a2 _ i (Host.reduce_andi_all _ _ _ _ _ h3 i)
  · exact word_entry a5 _ i 5000#32 5000 (by decide)
      (Host.reduce_andi_all _ _ _ _ _ h6 i) (Host.reduce_andi_all _ _ _ _ _ h7 i)
  · exact word_entry a6 _ i 2000#32 2000 (by decide)
      (Host.reduce_andi_all _ _ _ _ _ h8 i) (Host.reduce_andi_all _ _ _ _ _ h9 i)

end Cert.LogLik

end
-- ==== Proof.LoopValue.lean ====
/-
  What one grid point leaves in the carried accumulator and in the output block, as plain functions of the
  point's input blocks.

  The body's loop makes four trips; trip `k` loads rows `8k … 8k+7` of each of the four streamed blocks and
  adds that tile's contribution onto the value it carries, starting from zero. After the loop the body adds
  the loop's value onto what the accumulator holds: at a half's first point that is the zero it has just
  stored there, elsewhere what the point before left. At a half's last point the accumulator is also copied
  into the output block.
-/
import proofs.«427744_j82815559401913_4_alg».proof.Proof.Gen.KernelIdeal.Frame
import Idealize.ShloMosaic.Lib.WholeRead
import Idealize.ShloMosaic.Lib.Pipeline.Value

set_option maxRecDepth 16384

noncomputable section

namespace Cert.KernelIdeal.LoopValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The positions along the batter table's row, and along the pitcher table's. -/
abbrev pos1 : IVec S1x1x5120 32 := iota .tc S1x1x5120 32 [2] iota_S1x1x5120_d2_w32
abbrev pos2 : IVec S1x1x2048 32 := iota .tc S1x1x2048 32 [2] iota_S1x1x2048_d2_w32

/-- Rows `8k … 8k+7` of a 32 × 128 block: the tile trip `k` loads. -/
def tile2 {e : EltTy} (x : Vec F S32x128 e) (k : Fin k0_t1_loop.trips) : Vec F S8x128 e :=
  fun y => x ((Rect.unit (s := S32x128) (k0_off2 k) S8x128.size (k0_off2_inb k)).toLoadRect.idx y)

/-- The same rows of a 32 × 128 × 1 block. -/
def tile3 {e : EltTy} (x : Vec F S32x128x1 e) (k : Fin k0_t1_loop.trips) : Vec F S8x128x1 e :=
  fun y => x ((Rect.unit (s := S32x128x1) (k0_off1 k) S8x128x1.size (k0_off1_inb k)).toLoadRect.idx y)

/-- One trip: the carried value plus the trip's tile, through the body's arithmetic. -/
def tripVal (x0 x1 : Vec F S32x128 .f32) (x2 x3 : Vec F S32x128x1 .i32) (x4 : Vec F S1x5120 .f32) (x5 : Vec F S1x2048 .f32)
    (k : Fin k0_t1_loop.trips) (acc : FVec F S1x1 .f32) : FVec F S1x1 .f32 :=
  k0_pay9 acc (k0_pay12 (tile2 x0 k)) (k0_pay13 (tile2 x1 k))
    (k0_pay14 pos1 (k0_pay4 x4) (k0_pay5 x4) (tile3 x2 k))
    (k0_pay16 pos2 (k0_pay6 x5) (tile3 x3 k))
    (k0_pay17 pos2 (k0_pay7 x5) (tile3 x3 k))

theorem trips_eq : k0_t1_loop.trips = 4 := by decide

/-- The loop's value: four trips from zero. -/
def loopVal (x0 x1 : Vec F S32x128 .f32) (x2 x3 : Vec F S32x128x1 .i32) (x4 : Vec F S1x5120 .f32) (x5 : Vec F S1x2048 .f32) :
    FVec F S1x1 .f32 :=
  tripVal x0 x1 x2 x3 x4 x5 ⟨3, by rw [trips_eq]; omega⟩
    (tripVal x0 x1 x2 x3 x4 x5 ⟨2, by rw [trips_eq]; omega⟩
      (tripVal x0 x1 x2 x3 x4 x5 ⟨1, by rw [trips_eq]; omega⟩
        (tripVal x0 x1 x2 x3 x4 x5 ⟨0, by rw [trips_eq]; omega⟩ k0_pay8)))

/-- A trip of the run, on whole buffers held at the blocks, is `tripVal`. -/
theorem tripR_eq (𝒱 : Variants) (c : Dev nD) (bd : Option 𝒱.V) (i : grid0.Coords) (arg2 : Memref sig .tc .vmem S32x128 .f32) (harg2 : arg2.IsWhole) (arg3 : Memref sig .tc .vmem S32x128 .f32) (harg3 : arg3.IsWhole) (arg4 : Memref sig .tc .vmem S32x128x1 .i32) (harg4 : arg4.IsWhole) (arg5 : Memref sig .tc .vmem S32x128x1 .i32) (harg5 : arg5.IsWhole) (arg6 : Memref sig .tc .vmem S1x5120 .f32) (harg6 : arg6.IsWhole) (arg7 : Memref sig .tc .vmem S1x2048 .f32) (harg7 : arg7.IsWhole) (arg8 : Memref sig .tc .vmem S1x1x1 .f32) (harg8 : arg8.IsWhole) (arg9 : Memref sig .tc .vmem S1x1 .f32) (harg9 : arg9.IsWhole)
    (x0 x1 : Vec F S32x128 .f32) (x2 x3 : Vec F S32x128x1 .i32) (x4 : Vec F S1x5120 .f32) (x5 : Vec F S1x2048 .f32)
    (k : Fin k0_t1_loop.trips) (acc : FVec F S1x1 .f32) :
    tripR_k0_t1 (F := F) 𝒱 c bd i arg2 harg2 arg3 harg3 arg4 harg4 arg5 harg5 arg6 harg6 arg7 harg7 arg8 harg8 arg9 harg9 pos1 pos2 x4 x5
        (harg2.unread x0) (harg3.unread x1) (harg4.unread x2) (harg5.unread x3) k acc
      = tripVal x0 x1 x2 x3 x4 x5 k acc := by
  unfold tripR_k0_t1
  unfold trip_k0_t1
  dsimp only
  sl_unfold_words
  unfold tripVal tile2 tile3
  congr 2 <;> first | rfl | (funext y; exact harg2.readAt_unread _ _ y) | (funext y; exact harg3.readAt_unread _ _ y) | (funext y; exact harg4.readAt_unread _ _ y) | (funext y; exact harg5.readAt_unread _ _ y)

/-! ## The loop, and what each case leaves -/

theorem hz2 : (![0, 0] : Fin 2 → Nat) = fun _ => 0 := funext fun a => by fin_cases a <;> rfl
theorem hz3 : (![0, 0, 0] : Fin 3 → Nat) = fun _ => 0 := funext fun a => by fin_cases a <;> rfl

/-- The run's carried value after its four trips, on whole buffers held at the blocks, is `loopVal`. -/
theorem st_eq (𝒱 : Variants) (c : Dev nD) (bd : Option 𝒱.V) (i : grid0.Coords) (arg2 : Memref sig .tc .vmem S32x128 .f32) (harg2 : arg2.IsWhole) (arg3 : Memref sig .tc .vmem S32x128 .f32) (harg3 : arg3.IsWhole) (arg4 : Memref sig .tc .vmem S32x128x1 .i32) (harg4 : arg4.IsWhole) (arg5 : Memref sig .tc .vmem S32x128x1 .i32) (harg5 : arg5.IsWhole) (arg6 : Memref sig .tc .vmem S1x5120 .f32) (harg6 : arg6.IsWhole) (arg7 : Memref sig .tc .vmem S1x2048 .f32) (harg7 : arg7.IsWhole) (arg8 : Memref sig .tc .vmem S1x1x1 .f32) (harg8 : arg8.IsWhole) (arg9 : Memref sig .tc .vmem S1x1 .f32) (harg9 : arg9.IsWhole)
    (x0 x1 : Vec F S32x128 .f32) (x2 x3 : Vec F S32x128x1 .i32) (x4 : Vec F S1x5120 .f32) (x5 : Vec F S1x2048 .f32) :
    st_k0_t1 (F := F) 𝒱 c bd i arg2 harg2 arg3 harg3 arg4 harg4 arg5 harg5 arg6 harg6 arg7 harg7 arg8 harg8 arg9 harg9 pos1 pos2 x4 x5
        (harg2.unread x0) (harg3.unread x1) (harg4.unread x2) (harg5.unread x3) k0_pay8 4
      = loopVal x0 x1 x2 x3 x4 x5 := by
  have S := fun (k : Fin k0_t1_loop.trips) => st_k0_t1_succ (F := F) 𝒱 c bd i arg2 harg2 arg3 harg3 arg4 harg4 arg5 harg5 arg6 harg6 arg7 harg7 arg8 harg8 arg9 harg9 pos1 pos2 x4 x5
      (harg2.unread x0) (harg3.unread x1) (harg4.unread x2) (harg5.unread x3) k0_pay8 k
  have e4 := S ⟨3, by rw [trips_eq]; omega⟩
  have e3 := S ⟨2, by rw [trips_eq]; omega⟩
  have e2 := S ⟨1, by rw [trips_eq]; omega⟩
  have e1 := S ⟨0, by rw [trips_eq]; omega⟩
  dsimp only at e4 e3 e2 e1
  rw [e4, e3, e2, e1]
  simp only [tripR_eq]
  rfl

theorem trips_lit : Scf.trips (0#32) (Scalar.addi 0#32 4#32) 1#32 = 4 := by decide
theorem trips_lit' : Scf.trips k0_t1_loop.lb k0_t1_loop.ub k0_t1_loop.st = 4 := by decide

/-- At a half's first point the accumulator ends at the zero just stored plus the loop's value. -/
theorem sout0_A_0_eq (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S32x128x1 .i32) (harg4 : arg4.IsWhole) (arg5 : Memref sig .tc .vmem S32x128x1 .i32) (harg5 : arg5.IsWhole) (arg6 : Memref sig .tc .vmem S1x5120 .f32) (harg6 : arg6.IsWhole) (arg7 : Memref sig .tc .vmem S1x2048 .f32) (harg7 : arg7.IsWhole) (arg8 : Memref sig .tc .vmem S1x1x1 .f32) (harg8 : arg8.IsWhole) (arg9 : Memref sig .tc .vmem S1x1 .f32) (harg9 : arg9.IsWhole) (hc0 : cond0_0 i) (hc1 : ¬cond0_1 i)
    (x0 x1 : Vec F S32x128 .f32) (x2 x3 : Vec F S32x128x1 .i32) (x4 : Vec F S1x5120 .f32) (x5 : Vec F S1x2048 .f32) :
    sout0_A_0 (F := F) c i arg2 harg2 arg3 harg3 arg4 harg4 arg5 harg5 arg6 harg6 arg7 harg7 arg8 harg8 arg9 harg9 hc0 hc1 x0 x1 x2 x3 x4 x5
      = k0_pay10 (loopVal x0 x1 x2 x3 x4 x5) k0_pay1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1x1) hz2, View.readCov_unit_zero (S := S1x1) _ hz2]
  simp only [View.readAt_eq_ld, harg6.read_unread, harg7.read_unread, View.ld_unit_zero (S := S1x5120) hz2,
    View.ld_unit_zero (S := S1x2048) hz2, trips_lit, trips_lit']
  rw [st_eq]

/-- At a middle point it ends at what the point before left plus the loop's value. -/
theorem sout0_B_0_eq (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S32x128x1 .i32) (harg4 : arg4.IsWhole) (arg5 : Memref sig .tc .vmem S32x128x1 .i32) (harg5 : arg5.IsWhole) (arg6 : Memref sig .tc .vmem S1x5120 .f32) (harg6 : arg6.IsWhole) (arg7 : Memref sig .tc .vmem S1x2048 .f32) (harg7 : arg7.IsWhole) (arg8 : Memref sig .tc .vmem S1x1x1 .f32) (harg8 : arg8.IsWhole) (arg9 : Memref sig .tc .vmem S1x1 .f32) (harg9 : arg9.IsWhole) (hc0 : ¬cond0_0 i) (hc1 : ¬cond0_1 i)
    (x0 x1 : Vec F S32x128 .f32) (x2 x3 : Vec F S32x128x1 .i32) (x4 : Vec F S1x5120 .f32) (x5 : Vec F S1x2048 .f32)
    (xs0 : Vec F S1x1 .f32) :
    sout0_B_0 (F := F) c i arg2 harg2 arg3 harg3 arg4 harg4 arg5 harg5 arg6 harg6 arg7 harg7 arg8 harg8 arg9 harg9 hc0 hc1 x0 x1 x2 x3 x4 x5 xs0
      = k0_pay10 (loopVal x0 x1 x2 x3 x4 x5) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero (S := S1x1) hz2]
  simp only [View.readAt_eq_ld, harg6.read_unread, harg7.read_unread, harg9.read_unread, View.ld_unit_zero (S := S1x5120) hz2,
    View.ld_unit_zero (S := S1x2048) hz2, View.ld_unit_zero (S := S1x1) hz2, trips_lit, trips_lit']
  rw [st_eq]

/-- At a half's last point likewise, -/
theorem sout0_C_0_eq (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S32x128x1 .i32) (harg4 : arg4.IsWhole) (arg5 : Memref sig .tc .vmem S32x128x1 .i32) (harg5 : arg5.IsWhole) (arg6 : Memref sig .tc .vmem S1x5120 .f32) (harg6 : arg6.IsWhole) (arg7 : Memref sig .tc .vmem S1x2048 .f32) (harg7 : arg7.IsWhole) (arg8 : Memref sig .tc .vmem S1x1x1 .f32) (harg8 : arg8.IsWhole) (arg9 : Memref sig .tc .vmem S1x1 .f32) (harg9 : arg9.IsWhole) (hc0 : ¬cond0_0 i) (hc1 : cond0_1 i)
    (x0 x1 : Vec F S32x128 .f32) (x2 x3 : Vec F S32x128x1 .i32) (x4 : Vec F S1x5120 .f32) (x5 : Vec F S1x2048 .f32)
    (xs0 : Vec F S1x1 .f32) :
    sout0_C_0 (F := F) c i arg2 harg2 arg3 harg3 arg4 harg4 arg5 harg5 arg6 harg6 arg7 harg7 arg8 harg8 arg9 harg9 hc0 hc1 x0 x1 x2 x3 x4 x5 xs0
      = k0_pay10 (loopVal x0 x1 x2 x3 x4 x5) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S1x1) hz2]
  simp only [View.readAt_eq_ld, harg6.read_unread, harg7.read_unread, harg9.read_unread, View.ld_unit_zero (S := S1x5120) hz2,
    View.ld_unit_zero (S := S1x2048) hz2, View.ld_unit_zero (S := S1x1) hz2, trips_lit, trips_lit']
  rw [st_eq]

/-- and the output block is that accumulator, recast. -/
theorem out0_C_6_eq (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S32x128x1 .i32) (harg4 : arg4.IsWhole) (arg5 : Memref sig .tc .vmem S32x128x1 .i32) (harg5 : arg5.IsWhole) (arg6 : Memref sig .tc .vmem S1x5120 .f32) (harg6 : arg6.IsWhole) (arg7 : Memref sig .tc .vmem S1x2048 .f32) (harg7 : arg7.IsWhole) (arg8 : Memref sig .tc .vmem S1x1x1 .f32) (harg8 : arg8.IsWhole) (arg9 : Memref sig .tc .vmem S1x1 .f32) (harg9 : arg9.IsWhole) (hc0 : ¬cond0_0 i) (hc1 : cond0_1 i)
    (x0 x1 : Vec F S32x128 .f32) (x2 x3 : Vec F S32x128x1 .i32) (x4 : Vec F S1x5120 .f32) (x5 : Vec F S1x2048 .f32)
    (xs0 : Vec F S1x1 .f32) :
    out0_C_6 (F := F) c i arg2 harg2 arg3 harg3 arg4 harg4 arg5 harg5 arg6 harg6 arg7 harg7 arg8 harg8 arg9 harg9 hc0 hc1 x0 x1 x2 x3 x4 x5 xs0
      = k0_pay11 (k0_pay10 (loopVal x0 x1 x2 x3 x4 x5) xs0) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S1x1x1) hz3, View.readCov_unit_zero (S := S1x1) _ hz2]
  simp only [View.readAt_eq_ld, harg6.read_unread, harg7.read_unread, harg9.read_unread, View.ld_unit_zero (S := S1x5120) hz2,
    View.ld_unit_zero (S := S1x2048) hz2, View.ld_unit_zero (S := S1x1) hz2, trips_lit, trips_lit']
  rw [st_eq]

end Cert.KernelIdeal.LoopValue

end
-- ==== Proof.Spec.lean ====
/-
  The log-likelihood of the pairs as ONE function of the argument arrays, and the arithmetic that joins a
  padded, tiled accumulation of its terms to the plain sum over the pairs.

  A pair `n` has a batter word `b n`, a pitcher word `p n` and two event weights. Its logit is
  `w · v1[b n] + (1 − w) · v2[p n]`, its win probability the logistic of the logit clipped to
  `[lo, hi]`, and its term `e1 n · log prob + e2 n · log1p (−prob)`. The result is the sum of the terms.

  A table is read at a WORD: the entry when the word, as an unsigned number, is inside the table and zero
  otherwise (`tblAt`). For a word in range this is the entry, which is what a gather reads; and it is
  what a comparison of the word against every position, contracted against the table, gives for ANY word.
-/
import Idealize.ShloMosaic.PureOps.Ideal
import Idealize.ShloMosaic.PureOps.Ideal.Laws
import Mathlib.Algebra.BigOperators.Intervals
import Mathlib.Algebra.BigOperators.Fin

noncomputable section

namespace Cert.LogLik

open Idealize.ShloMosaic

/-! ## One pair -/

/-- The clipped win probability of a pair with logit `z`: the logistic, kept inside the two bounds. -/
def clipP (z : EReal) : EReal :=
  min (Ideal.ofBits .f32 0x3F7FFFEF#32) (max (Ideal.ofBits .f32 0x358637BD#32) (Ideal.logistic z))

/-- One pair's log-likelihood from its two event weights and its logit. -/
def pairLL (e1 e2 z : EReal) : EReal :=
  e1 * Ideal.log (clipP z) + e2 * Ideal.log1p (0 - clipP z)

/-- A pair with both event weights zero contributes nothing, whatever its logit. -/
theorem pairLL_zero (z : EReal) : pairLL 0 0 z = 0 := by
  simp [pairLL]

/-- A table read at a word: the entry at the word's unsigned value when that is inside, zero otherwise. -/
def tblAt {N : ℕ} (t : Fin N → EReal) (b : BitVec 32) : EReal :=
  if h : b.toNat < N then t ⟨b.toNat, h⟩ else 0

/-- The complement `1 − w` of the mixing weight, with the program's own word for one. -/
def coW (w : EReal) : EReal := Ideal.ofBits .f32 0x3F800000#32 - w

/-- A pair's logit from the mixing weight, the two strength tables and the pair's two words. -/
def logit (w : EReal) (v1 : Fin 5000 → EReal) (v2 : Fin 2000 → EReal) (b p : BitVec 32) : EReal :=
  w * tblAt v1 b + coW w * tblAt v2 p

/-- The result: zero plus the sum of the pairs' terms. -/
def result (w : EReal) (v1 : Fin 5000 → EReal) (v2 : Fin 2000 → EReal)
    (e1 e2 : Fin 10000000 → EReal) (b p : Fin 10000000 → BitVec 32) : EReal :=
  0 + ∑ n : Fin 10000000, pairLL (e1 n) (e2 n) (logit w v1 v2 (b n) (p n))

/-! ## Padding -/

/-- An event array continued by zeros past its end. -/
def padF (e : Fin 10000000 → EReal) (n : ℕ) : EReal := if h : n < 10000000 then e ⟨n, h⟩ else 0

/-- A word array continued by zero words past its end. -/
def padI (b : Fin 10000000 → BitVec 32) (n : ℕ) : BitVec 32 := if h : n < 10000000 then b ⟨n, h⟩ else 0#32

/-- The term of position `n` of the padded arrays: a pair's term below the arrays' end, zero past it. -/
def term (w : EReal) (v1 : Fin 5000 → EReal) (v2 : Fin 2000 → EReal)
    (e1 e2 : Fin 10000000 → EReal) (b p : Fin 10000000 → BitVec 32) (n : ℕ) : EReal :=
  pairLL (padF e1 n) (padF e2 n) (logit w v1 v2 (padI b n) (padI p n))

/-- Past the arrays' end the padded term is zero. -/
theorem term_of_ge (w : EReal) (v1 : Fin 5000 → EReal) (v2 : Fin 2000 → EReal)
    (e1 e2 : Fin 10000000 → EReal) (b p : Fin 10000000 → BitVec 32) (n : ℕ) (hn : 10000000 ≤ n) :
    term w v1 v2 e1 e2 b p n = 0 := by
  have h : ¬ n < 10000000 := by omega
  unfold term padF
  rw [dif_neg h, dif_neg h]
  exact pairLL_zero _

/-- Below it, the pair's own term. -/
theorem term_of_lt (w : EReal) (v1 : Fin 5000 → EReal) (v2 : Fin 2000 → EReal)
    (e1 e2 : Fin 10000000 → EReal) (b p : Fin 10000000 → BitVec 32) (n : Fin 10000000) :
    term w v1 v2 e1 e2 b p n.val = pairLL (e1 n) (e2 n) (logit w v1 v2 (b n) (p n)) := by
  have h : n.val < 10000000 := n.isLt
  unfold term padF padI
  simp only [dif_pos h, Fin.eta]

/-! ## The tiled accumulation -/

section Tiled
variable {M : Type} [AddCommMonoid M] (f : ℕ → M)

/-- The terms of one row of 128 positions. -/
def rowSum (row : ℕ) : M := ∑ l : Fin 128, f (row * 128 + l.val)

/-- The terms of a tile of 8 rows from row `row0`. -/
def tileSum (row0 : ℕ) : M := ∑ r : Fin 8, rowSum f (row0 + r.val)

/-- The terms of a block of 32 rows, tile after tile onto a zero. -/
def stepSum (blk : ℕ) : M :=
  (((0 + tileSum f (blk * 32)) + tileSum f (blk * 32 + 8)) + tileSum f (blk * 32 + 16)) + tileSum f (blk * 32 + 24)

/-- Half `p`'s running sum after its block `s`: reset at the half's first block, then block after block. -/
def accAt (p : ℕ) : ℕ → M
  | 0 => 0 + stepSum f (p * 1221)
  | s + 1 => accAt p s + stepSum f (p * 1221 + (s + 1))

/-- `a` consecutive runs of `b` positions from `base` are the `a * b` positions from `base`. -/
private theorem sum_runs (g : ℕ → M) (base a b : ℕ) :
    ∑ i ∈ Finset.range a, ∑ j ∈ Finset.range b, g (base + i * b + j)
      = ∑ n ∈ Finset.range (a * b), g (base + n) := by
  induction a with
  | zero => simp
  | succ a ih =>
    rw [Finset.sum_range_succ, ih, Nat.succ_mul, Finset.sum_range_add]
    congr 1
    apply Finset.sum_congr rfl
    intro j _
    rw [add_assoc]

/-- A row is 128 consecutive positions. -/
private theorem rowSum_eq (row : ℕ) : rowSum f row = ∑ n ∈ Finset.range 128, f (row * 128 + n) := by
  unfold rowSum
  rw [Finset.sum_range]

/-- A tile is 1024 consecutive positions. -/
private theorem tileSum_eq (row0 : ℕ) :
    tileSum f row0 = ∑ n ∈ Finset.range 1024, f (row0 * 128 + n) := by
  unfold tileSum
  rw [← Finset.sum_range (fun r => rowSum f (row0 + r))]
  have h := sum_runs f (row0 * 128) 8 128
  rw [show (8 * 128 : ℕ) = 1024 from rfl] at h
  rw [← h]
  apply Finset.sum_congr rfl
  intro r _
  rw [rowSum_eq, Nat.add_mul]

/-- A block is 4096 consecutive positions. -/
private theorem stepSum_eq (blk : ℕ) :
    stepSum f blk = ∑ n ∈ Finset.range 4096, f (blk * 4096 + n) := by
  unfold stepSum
  rw [tileSum_eq, tileSum_eq, tileSum_eq, tileSum_eq, zero_add]
  have e : ∑ n ∈ Finset.range 4096, f (blk * 4096 + n)
      = ∑ n ∈ Finset.range (1024 + 1024 + 1024 + 1024), f (blk * 4096 + n) := rfl
  rw [e, Finset.sum_range_add, Finset.sum_range_add, Finset.sum_range_add]
  congr 1
  · congr 1
    · congr 1
      · apply Finset.sum_congr rfl
        intro n _
        congr 1
        omega
      · apply Finset.sum_congr rfl
        intro n _
        congr 1
        omega
    · apply Finset.sum_congr rfl
      intro n _
      congr 1
      omega
  · apply Finset.sum_congr rfl
    intro n _
    congr 1
    omega

/-- After its block `s` a half has added up its first `(s + 1) * 4096` positions. -/
private theorem accAt_eq (p s : ℕ) :
    accAt f p s = ∑ n ∈ Finset.range ((s + 1) * 4096), f (p * 1221 * 4096 + n) := by
  induction s with
  | zero =>
    unfold accAt
    rw [zero_add, stepSum_eq, Nat.zero_add, Nat.one_mul]
  | succ s ih =>
    unfold accAt
    rw [ih, stepSum_eq, Nat.succ_mul (s + 1) 4096, Finset.sum_range_add]
    congr 1
    apply Finset.sum_congr rfl
    intro n _
    congr 1
    rw [Nat.add_mul, add_assoc]

/-- The two halves' totals, added onto a zero, are the sum of all the padded positions. -/
theorem tiled_total : 0 + ∑ p : Fin 2, accAt f p.val 1220 = ∑ n ∈ Finset.range 10002432, f n := by
  have e : (10002432 : ℕ) = (1220 + 1) * 4096 + (1220 + 1) * 4096 := by norm_num
  rw [e, Finset.sum_range_add f ((1220 + 1) * 4096) ((1220 + 1) * 4096), zero_add, Fin.sum_univ_two,
    accAt_eq, accAt_eq]
  have hA : ∑ x ∈ Finset.range ((1220 + 1) * 4096), f (((0 : Fin 2) : ℕ) * 1221 * 4096 + x)
      = ∑ x ∈ Finset.range ((1220 + 1) * 4096), f x := by
    apply Finset.sum_congr rfl
    intro n _
    rw [Fin.val_zero, Nat.zero_mul, Nat.zero_add]
  have hB : ∑ x ∈ Finset.range ((1220 + 1) * 4096), f (((1 : Fin 2) : ℕ) * 1221 * 4096 + x)
      = ∑ x ∈ Finset.range ((1220 + 1) * 4096), f ((1220 + 1) * 4096 + x) := by
    apply Finset.sum_congr rfl
    intro n _
    rw [Fin.val_one, Nat.one_mul]
  rw [hA, hB]

end Tiled

/-- THE JOIN: the tiled accumulation of the padded terms is the result. -/
theorem tiled_eq_result (w : EReal) (v1 : Fin 5000 → EReal) (v2 : Fin 2000 → EReal)
    (e1 e2 : Fin 10000000 → EReal) (b p : Fin 10000000 → BitVec 32) :
    0 + ∑ q : Fin 2, accAt (term w v1 v2 e1 e2 b p) q.val 1220 = result w v1 v2 e1 e2 b p := by
  unfold result
  have e : (10002432 : ℕ) = 10000000 + 2432 := by norm_num
  have h2 : ∑ x ∈ Finset.range 2432, term w v1 v2 e1 e2 b p (10000000 + x) = 0 :=
    Finset.sum_eq_zero (fun x _ => term_of_ge w v1 v2 e1 e2 b p (10000000 + x) (by omega))
  rw [tiled_total, e, Finset.sum_range_add, h2, add_zero, Finset.sum_range, zero_add]
  exact Finset.sum_congr rfl (fun n _ => term_of_lt w v1 v2 e1 e2 b p n)

/-! ## A table read by comparison -/

/-- Comparing a word against every position of a table and adding up the entries where they agree reads the
    table at the word: at most one position agrees, and none when the word is outside. -/
theorem sum_onehot {N : ℕ} (hN : N < 2 ^ 32) (t : Fin N → EReal) (b : BitVec 32) :
    ∑ j : Fin N, (if b = BitVec.ofNat 32 j.val then (1 : EReal) else 0) * t j = tblAt t b := by
  unfold tblAt
  by_cases h : b.toNat < N
  · rw [dif_pos h, Finset.sum_eq_single (⟨b.toNat, h⟩ : Fin N)]
    · have hb : b = BitVec.ofNat 32 b.toNat := by
        apply BitVec.eq_of_toNat_eq
        rw [BitVec.toNat_ofNat, Nat.mod_eq_of_lt b.isLt]
      rw [if_pos hb, one_mul]
    · intro j _ hj
      have hb : ¬ b = BitVec.ofNat 32 j.val := by
        intro hb
        apply hj
        apply Fin.ext
        have hlt := j.isLt
        have hv := congrArg BitVec.toNat hb
        rw [BitVec.toNat_ofNat, Nat.mod_eq_of_lt (by omega)] at hv
        exact hv.symm
      rw [if_neg hb, zero_mul]
    · intro habs
      exact absurd (Finset.mem_univ _) habs
  · rw [dif_neg h]
    apply Finset.sum_eq_zero
    intro j _
    have hb : ¬ b = BitVec.ofNat 32 j.val := by
      intro hb
      apply h
      have hlt := j.isLt
      have hv := congrArg BitVec.toNat hb
      rw [BitVec.toNat_ofNat, Nat.mod_eq_of_lt (by omega)] at hv
      omega
    rw [if_neg hb, zero_mul]

end Cert.LogLik

end
-- ==== Proof.TileValue.lean ====
/-
  One tile of 8 × 128 pairs, read off the body's arithmetic at the exact instance.

  The body compares each pair's batter word against every position of the batter table's row, multiplies
  the 0/1 outcome with the row (once with the row itself, once with the row minus itself, which is zero for
  real entries), and adds along the row: that reads the row at the word. Likewise for the pitcher. The two
  reads add up to the pair's logit; the logistic, the clipping, the two logarithms and the two products give
  the pair's term; the terms are added along each row of 128, then over the 8 rows, and onto the carried value.
-/
import proofs.«427744_j82815559401913_4_alg».proof.Proof.Gen.KernelIdeal.Skeleton
import proofs.«427744_j82815559401913_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Idealize.ShloMosaic Idealize.ShloMosaic.ValueIdx Cert.KernelIdeal Cert.KernelIdeal.Gen Cert.LogLik

/-- The batter table's one row as a function of the position. -/
def row1 (t : Vec Ideal S1x5120 .f32) : Fin 5120 → EReal := fun j => t (ix2 0 j)

/-- The pitcher table's one row as a function of the position. -/
def row2 (t : Vec Ideal S1x2048 .f32) : Fin 2048 → EReal := fun j => t (ix2 0 j)

/-- The positions along the batter table's row, and along the pitcher table's. -/
abbrev pos1 : IVec S1x1x5120 32 := iota .tc S1x1x5120 32 [2] iota_S1x1x5120_d2_w32
abbrev pos2 : IVec S1x1x2048 32 := iota .tc S1x1x2048 32 [2] iota_S1x1x2048_d2_w32

/-! ## Words and numbers -/

/-- A real number minus itself is zero. -/
private theorem sub_self_real (x : EReal) (h : x ≠ ⊤ ∧ x ≠ ⊥) : x - x = 0 := by
  lift x to ℝ using ⟨h.1, h.2⟩
  rw [← EReal.coe_sub, sub_self, EReal.coe_zero]

/-- Equality of two words as a one-bit word. -/
private theorem cmpi_eq_ite (a b : BitVec 32) : IntOp.cmpi .eq a b = if a = b then 1#1 else 0#1 := by
  show BitVec.ofBool (a == b) = _
  by_cases h : a = b
  · rw [if_pos h, beq_iff_eq.mpr h]; rfl
  · rw [if_neg h, beq_eq_false_iff_ne.mpr h]; rfl

/-- The comparison's outcome, widened to 32 bits and read as a number: one when the words agree, zero otherwise. -/
private theorem onehot_val (bw pw : BitVec 32) :
    (FloatOps.sitofp (F := Ideal) .f32 ((IntOp.cmpi .eq bw pw).setWidth 32) : EReal)
      = if bw = pw then 1 else 0 := by
  show (((((IntOp.cmpi .eq bw pw).setWidth 32).toInt : ℤ) : ℝ) : EReal) = _
  rw [cmpi_eq_ite]
  by_cases h : bw = pw
  · rw [if_pos h, if_pos h]
    have e : ((1#1 : BitVec 1).setWidth 32).toInt = 1 := by decide
    rw [e, Int.cast_one, EReal.coe_one]
  · rw [if_neg h, if_neg h]
    have e : ((0#1 : BitVec 1).setWidth 32).toInt = 0 := by decide
    rw [e, Int.cast_zero, EReal.coe_zero]

/-- Position `j` of the batter row carries the word `j`. -/
private theorem pos1_at (j : Fin 5120) : pos1 (ix3 (0 : Fin 1) (0 : Fin 1) j) = BitVec.ofNat 32 j.val :=
  iota_single_apply .tc S1x1x5120 32 2 iota_S1x1x5120_d2_w32 (ix3 (0 : Fin 1) (0 : Fin 1) j)

/-- Position `j` of the pitcher row carries the word `j`. -/
private theorem pos2_at (j : Fin 2048) : pos2 (ix3 (0 : Fin 1) (0 : Fin 1) j) = BitVec.ofNat 32 j.val :=
  iota_single_apply .tc S1x1x2048 32 2 iota_S1x1x2048_d2_w32 (ix3 (0 : Fin 1) (0 : Fin 1) j)

/-! ## The batter table read at a pair's word -/

/-- Pair `(r, l)` with position `k` put back on the row axis is the index `(r, l, k)`. -/
private theorem lift1 (r : Fin 8) (l : Fin 128) (k : Fin 5120) :
    reduces_S8x128x5120_S8x128.lift (ix2 r l) k = ix3 r l k := by
  funext c
  match c with
  | ⟨0, _⟩ => rfl
  | ⟨1, _⟩ => rfl
  | ⟨2, _⟩ => rfl

/-- The pairs' words repeated along the row read, at every position, the pair's word. -/
private theorem bcast_word1 (v : IVec S8x128x1 32) (r : Fin 8) (l : Fin 128) (j : Fin 5120) :
    broadcastTo S8x128x5120 v broadcasts_S8x128x1_S8x128x5120 (ix3 r l j) = v (ix3 r l (0 : Fin 1)) := by
  refine broadcastTo_apply v _ (ix3 r l j) (ix3 r l (0 : Fin 1)) fun ax => ?_
  match ax with
  | ⟨0, _⟩ => rfl
  | ⟨1, _⟩ => rfl
  | ⟨2, _⟩ => rfl

/-- A row repeated over the pairs reads, at every pair, the row. -/
private theorem bcast_row1 {α : Type} (v : S1x1x5120.Idx → α) (r : Fin 8) (l : Fin 128) (j : Fin 5120) :
    broadcastTo S8x128x5120 v broadcasts_S1x1x5120_S8x128x5120 (ix3 r l j) = v (ix3 (0 : Fin 1) (0 : Fin 1) j) := by
  refine broadcastTo_apply v _ (ix3 r l j) (ix3 (0 : Fin 1) (0 : Fin 1) j) fun ax => ?_
  match ax with
  | ⟨0, _⟩ => rfl
  | ⟨1, _⟩ => rfl
  | ⟨2, _⟩ => rfl

/-- The batter table's row recast reads the table. -/
private theorem pay4_at (t1 : Vec Ideal S1x5120 .f32) (j : Fin 5120) :
    k0_pay4 (F := Ideal) t1 (ix3 (0 : Fin 1) (0 : Fin 1) j) = t1 (ix2 (0 : Fin 1) j) := by
  unfold k0_pay4 k0_pay2
  refine (shapeCast_ab_1ab_apply _ _ (0 : Fin 1) (0 : Fin 1) j).trans ?_
  rw [truncf_apply, shapeCast_self]

/-- The row minus itself, recast, is zero at every position when the entries are real. -/
private theorem pay5_at (t1 : Vec Ideal S1x5120 .f32) (h1 : ∀ j, t1 j ≠ ⊤ ∧ t1 j ≠ ⊥) (j : Fin 5120) :
    k0_pay5 (F := Ideal) t1 (ix3 (0 : Fin 1) (0 : Fin 1) j) = 0 := by
  unfold k0_pay5 k0_pay2
  refine (shapeCast_ab_1ab_apply _ _ (0 : Fin 1) (0 : Fin 1) j).trans ?_
  rw [truncf_apply, subf_apply, shapeCast_self]
  exact sub_self_real _ (h1 _)

/-- One term of a batter comparison's sum: the 0/1 outcome at pair `(r, l)` and position `j` times the row's entry. -/
private theorem term1 (v : FVec Ideal S1x1x5120 .bf16) (bi : Vec Ideal S8x128x1 .i32) (r : Fin 8) (l : Fin 128) (j : Fin 5120) :
    (extf .f32 (mulf (truncf .bf16 (sitofp (F := Ideal) .f32 (extui 32 (cmpi .eq
        (broadcastTo S8x128x5120 (shapeCast S8x128x1 bi shapeCasts_S8x128x1_S8x128x1 : IVec S8x128x1 32) broadcasts_S8x128x1_S8x128x5120)
        (broadcastTo S8x128x5120 pos1 broadcasts_S1x1x5120_S8x128x5120)) natLt_1_32)) bitsLt_bf16_f32)
        (broadcastTo S8x128x5120 v broadcasts_S1x1x5120_S8x128x5120)) bitsLt_bf16_f32 : FVec Ideal S8x128x5120 .f32) (ix3 r l j)
      = (if bi (ix3 r l (0 : Fin 1)) = BitVec.ofNat 32 j.val then (1 : EReal) else 0) * v (ix3 (0 : Fin 1) (0 : Fin 1) j) := by
  show FloatOps.sitofp (F := Ideal) .f32 ((IntOp.cmpi .eq
        (broadcastTo S8x128x5120 (shapeCast S8x128x1 bi shapeCasts_S8x128x1_S8x128x1 : IVec S8x128x1 32) broadcasts_S8x128x1_S8x128x5120 (ix3 r l j))
        (broadcastTo S8x128x5120 pos1 broadcasts_S1x1x5120_S8x128x5120 (ix3 r l j))).setWidth 32)
      * broadcastTo S8x128x5120 v broadcasts_S1x1x5120_S8x128x5120 (ix3 r l j) = _
  rw [onehot_val, bcast_word1, bcast_row1, bcast_row1, pos1_at, shapeCast_self]

/-- A sum along the batter row, read at a pair, is the sum over the row's positions. -/
private theorem rowsum1 (src : FVec Ideal S8x128x5120 .f32) (hφ : FKind.Formats .f32)
    (hacc : (0x00000000#32 : BitVec 32) = FKind.add.neutral .f32 hφ) (r : Fin 8) (l : Fin 128) :
    multiReduction (F := Ideal) .add [2] S8x128 src 0x00000000#32 reduces_S8x128x5120_S8x128 hφ hacc (ix2 r l)
      = ∑ j : Fin 5120, src (ix3 r l j) := by
  refine (Ideal.multiReduction_add_single src 0x00000000#32 reduces_S8x128x5120_S8x128 hφ hacc (ix2 r l)).trans ?_
  exact Finset.sum_congr rfl fun j _ => congrArg src (lift1 r l j)

/-- The batter read for any two rows: the two comparisons' sums. -/
private theorem pay14_at (v17 v18 : FVec Ideal S1x1x5120 .bf16) (bi : Vec Ideal S8x128x1 .i32) (r : Fin 8) (l : Fin 128) :
    k0_pay14 (F := Ideal) pos1 v17 v18 bi (ix2 r l)
      = (∑ j : Fin 5120, (if bi (ix3 r l (0 : Fin 1)) = BitVec.ofNat 32 j.val then (1 : EReal) else 0) * v17 (ix3 (0 : Fin 1) (0 : Fin 1) j))
        + ∑ j : Fin 5120, (if bi (ix3 r l (0 : Fin 1)) = BitVec.ofNat 32 j.val then (1 : EReal) else 0) * v18 (ix3 (0 : Fin 1) (0 : Fin 1) j) := by
  unfold k0_pay14
  refine (addf_apply _ _ _).trans ?_
  refine congrArg₂ (· + ·) ?_ ?_
  · refine (rowsum1 _ _ _ r l).trans ?_
    exact Finset.sum_congr rfl fun j _ => term1 v17 bi r l j
  · refine (rowsum1 _ _ _ r l).trans ?_
    exact Finset.sum_congr rfl fun j _ => term1 v18 bi r l j

/-- The batter read: the table's row at the pair's word (the second sum, against the row minus itself, is zero). -/
private theorem read1 (t1 : Vec Ideal S1x5120 .f32) (h1 : ∀ j, t1 j ≠ ⊤ ∧ t1 j ≠ ⊥) (bi : Vec Ideal S8x128x1 .i32)
    (r : Fin 8) (l : Fin 128) :
    k0_pay14 (F := Ideal) pos1 (k0_pay4 t1) (k0_pay5 t1) bi (ix2 r l)
      = tblAt (row1 t1) (bi (ix3 r l (0 : Fin 1))) := by
  rw [pay14_at]
  have e1 : ∑ j : Fin 5120, (if bi (ix3 r l (0 : Fin 1)) = BitVec.ofNat 32 j.val then (1 : EReal) else 0)
        * k0_pay4 (F := Ideal) t1 (ix3 (0 : Fin 1) (0 : Fin 1) j) = tblAt (row1 t1) (bi (ix3 r l (0 : Fin 1))) := by
    refine (Finset.sum_congr rfl fun j _ => ?_).trans (sum_onehot (by norm_num) (row1 t1) (bi (ix3 r l (0 : Fin 1))))
    rw [pay4_at]
    rfl
  have e2 : ∑ j : Fin 5120, (if bi (ix3 r l (0 : Fin 1)) = BitVec.ofNat 32 j.val then (1 : EReal) else 0)
        * k0_pay5 (F := Ideal) t1 (ix3 (0 : Fin 1) (0 : Fin 1) j) = 0 :=
    Finset.sum_eq_zero fun j _ => by rw [pay5_at t1 h1, mul_zero]
  rw [e1, e2, add_zero]

/-! ## The pitcher table read at a pair's word -/

/-- Pair `(r, l)` with position `k` put back on the row axis is the index `(r, l, k)`. -/
private theorem lift2 (r : Fin 8) (l : Fin 128) (k : Fin 2048) :
    reduces_S8x128x2048_S8x128.lift (ix2 r l) k = ix3 r l k := by
  funext c
  match c with
  | ⟨0, _⟩ => rfl
  | ⟨1, _⟩ => rfl
  | ⟨2, _⟩ => rfl

/-- The pairs' words repeated along the row read, at every position, the pair's word. -/
private theorem bcast_word2 (v : IVec S8x128x1 32) (r : Fin 8) (l : Fin 128) (j : Fin 2048) :
    broadcastTo S8x128x2048 v broadcasts_S8x128x1_S8x128x2048 (ix3 r l j) = v (ix3 r l (0 : Fin 1)) := by
  refine broadcastTo_apply v _ (ix3 r l j) (ix3 r l (0 : Fin 1)) fun ax => ?_
  match ax with
  | ⟨0, _⟩ => rfl
  | ⟨1, _⟩ => rfl
  | ⟨2, _⟩ => rfl

/-- A row repeated over the pairs reads, at every pair, the row. -/
private theorem bcast_row2 {α : Type} (v : S1x1x2048.Idx → α) (r : Fin 8) (l : Fin 128) (j : Fin 2048) :
    broadcastTo S8x128x2048 v broadcasts_S1x1x2048_S8x128x2048 (ix3 r l j) = v (ix3 (0 : Fin 1) (0 : Fin 1) j) := by
  refine broadcastTo_apply v _ (ix3 r l j) (ix3 (0 : Fin 1) (0 : Fin 1) j) fun ax => ?_
  match ax with
  | ⟨0, _⟩ => rfl
  | ⟨1, _⟩ => rfl
  | ⟨2, _⟩ => rfl

/-- The pitcher table's row recast reads the table. -/
private theorem pay6_at (t2 : Vec Ideal S1x2048 .f32) (j : Fin 2048) :
    k0_pay6 (F := Ideal) t2 (ix3 (0 : Fin 1) (0 : Fin 1) j) = t2 (ix2 (0 : Fin 1) j) := by
  unfold k0_pay6 k0_pay3
  refine (shapeCast_ab_1ab_apply _ _ (0 : Fin 1) (0 : Fin 1) j).trans ?_
  rw [truncf_apply, shapeCast_self]

/-- The row minus itself, recast, is zero at every position when the entries are real. -/
private theorem pay7_at (t2 : Vec Ideal S1x2048 .f32) (h2 : ∀ j, t2 j ≠ ⊤ ∧ t2 j ≠ ⊥) (j : Fin 2048) :
    k0_pay7 (F := Ideal) t2 (ix3 (0 : Fin 1) (0 : Fin 1) j) = 0 := by
  unfold k0_pay7 k0_pay3
  refine (shapeCast_ab_1ab_apply _ _ (0 : Fin 1) (0 : Fin 1) j).trans ?_
  rw [truncf_apply, subf_apply, shapeCast_self]
  exact sub_self_real _ (h2 _)

/-- The pitcher comparison's outcome at pair `(r, l)` and position `j`. -/
private theorem pay15_at (pj : Vec Ideal S8x128x1 .i32) (r : Fin 8) (l : Fin 128) (j : Fin 2048) :
    k0_pay15 (F := Ideal) pos2 pj (ix3 r l j)
      = if pj (ix3 r l (0 : Fin 1)) = BitVec.ofNat 32 j.val then (1 : EReal) else 0 := by
  unfold k0_pay15
  show FloatOps.sitofp (F := Ideal) .f32 ((IntOp.cmpi .eq
        (broadcastTo S8x128x2048 (shapeCast S8x128x1 pj shapeCasts_S8x128x1_S8x128x1 : IVec S8x128x1 32) broadcasts_S8x128x1_S8x128x2048 (ix3 r l j))
        (broadcastTo S8x128x2048 pos2 broadcasts_S1x1x2048_S8x128x2048 (ix3 r l j))).setWidth 32) = _
  rw [onehot_val, bcast_word2, bcast_row2, pos2_at, shapeCast_self]

/-- One term of the pitcher's second comparison: the 0/1 outcome times the row's entry. -/
private theorem pay17_at (v : FVec Ideal S1x1x2048 .bf16) (pj : Vec Ideal S8x128x1 .i32) (r : Fin 8) (l : Fin 128) (j : Fin 2048) :
    k0_pay17 (F := Ideal) pos2 v pj (ix3 r l j)
      = (if pj (ix3 r l (0 : Fin 1)) = BitVec.ofNat 32 j.val then (1 : EReal) else 0) * v (ix3 (0 : Fin 1) (0 : Fin 1) j) := by
  unfold k0_pay17
  show k0_pay15 (F := Ideal) pos2 pj (ix3 r l j) * broadcastTo S8x128x2048 v broadcasts_S1x1x2048_S8x128x2048 (ix3 r l j) = _
  rw [pay15_at, bcast_row2]

/-- A sum along the pitcher row, read at a pair, is the sum over the row's positions. -/
private theorem rowsum2 (src : FVec Ideal S8x128x2048 .f32) (hφ : FKind.Formats .f32)
    (hacc : (0x00000000#32 : BitVec 32) = FKind.add.neutral .f32 hφ) (r : Fin 8) (l : Fin 128) :
    multiReduction (F := Ideal) .add [2] S8x128 src 0x00000000#32 reduces_S8x128x2048_S8x128 hφ hacc (ix2 r l)
      = ∑ j : Fin 2048, src (ix3 r l j) := by
  refine (Ideal.multiReduction_add_single src 0x00000000#32 reduces_S8x128x2048_S8x128 hφ hacc (ix2 r l)).trans ?_
  exact Finset.sum_congr rfl fun j _ => congrArg src (lift2 r l j)

/-- The pitcher read: the table's row at the pair's word. -/
private theorem read2 (t2 : Vec Ideal S1x2048 .f32) (pj : Vec Ideal S8x128x1 .i32) (r : Fin 8) (l : Fin 128) :
    k0_pay16 (F := Ideal) pos2 (k0_pay6 t2) pj (ix2 r l) = tblAt (row2 t2) (pj (ix3 r l (0 : Fin 1))) := by
  unfold k0_pay16
  refine (rowsum2 _ _ _ r l).trans ?_
  refine (Finset.sum_congr rfl fun j _ => ?_).trans (sum_onehot (by norm_num) (row2 t2) (pj (ix3 r l (0 : Fin 1))))
  show k0_pay15 (F := Ideal) pos2 pj (ix3 r l j) * broadcastTo S8x128x2048 (k0_pay6 (F := Ideal) t2) broadcasts_S1x1x2048_S8x128x2048 (ix3 r l j) = _
  rw [pay15_at, bcast_row2, pay6_at]
  rfl

/-- The pitcher's second comparison, against the row minus itself, adds up to zero. -/
private theorem read2_zero (t2 : Vec Ideal S1x2048 .f32) (h2 : ∀ j, t2 j ≠ ⊤ ∧ t2 j ≠ ⊥) (pj : Vec Ideal S8x128x1 .i32)
    (r : Fin 8) (l : Fin 128) :
    ∑ j : Fin 2048, k0_pay17 (F := Ideal) pos2 (k0_pay7 t2) pj (ix3 r l j) = 0 :=
  Finset.sum_eq_zero fun j _ => by rw [pay17_at, pay7_at t2 h2, mul_zero]

/-! ## The pairs' terms and their two sums -/

/-- Row `r` with lane `l` put back is the pair `(r, l)`. -/
private theorem lift_row (r : Fin 8) (l : Fin 128) : reduces_S8x128_S8.lift (ix1 r) l = ix2 r l := by
  funext c
  match c with
  | ⟨0, _⟩ => rfl
  | ⟨1, _⟩ => rfl

/-- The one column with row `r` put back is `(r, i)`. -/
private theorem lift_col (i : Fin 1) (r : Fin 8) : reduces_S8x1_S1.lift (ix1 i) r = ix2 r i := by
  funext c
  match c with
  | ⟨0, _⟩ => rfl
  | ⟨1, _⟩ => rfl

/-- A sum along a row of 128 pairs. -/
private theorem rowsum128 (src : FVec Ideal S8x128 .f32) (hφ : FKind.Formats .f32)
    (hacc : (0x00000000#32 : BitVec 32) = FKind.add.neutral .f32 hφ) (r : Fin 8) :
    multiReduction (F := Ideal) .add [1] S8 src 0x00000000#32 reduces_S8x128_S8 hφ hacc (ix1 r)
      = ∑ l : Fin 128, src (ix2 r l) := by
  refine (Ideal.multiReduction_add_single src 0x00000000#32 reduces_S8x128_S8 hφ hacc (ix1 r)).trans ?_
  exact Finset.sum_congr rfl fun l _ => congrArg src (lift_row r l)

/-- A sum over the 8 rows. -/
private theorem colsum8 (src : FVec Ideal S8x1 .f32) (hφ : FKind.Formats .f32)
    (hacc : (0x00000000#32 : BitVec 32) = FKind.add.neutral .f32 hφ) (i : Fin 1) :
    multiReduction (F := Ideal) .add [0] S1 src 0x00000000#32 reduces_S8x1_S1 hφ hacc (ix1 i)
      = ∑ r : Fin 8, src (ix2 r i) := by
  refine (Ideal.multiReduction_add_single src 0x00000000#32 reduces_S8x1_S1 hφ hacc (ix1 i)).trans ?_
  exact Finset.sum_congr rfl fun r _ => congrArg src (lift_col i r)

/-- A vector of 8 recast as a column reads the vector: entry `(r, 0)` has row-major position `r`. -/
private theorem cast_col {α : Type} (x : S8.Idx → α) (r : Fin 8) (i : Fin 1) :
    shapeCast S8x1 x shapeCasts_S8_S8x1 (ix2 r i) = x (ix1 r) :=
  shapeCast_apply x _ _ _ (by
    have hi : i.val = 0 := by omega
    rw [Shape.rowMajor_val_two, Shape.rowMajor_val_one]
    show r.val = r.val * 1 + i.val
    rw [hi, Nat.mul_one, Nat.add_zero])

/-- One pair's term as the body computes it from the pair's two weights and its logit: the logistic, clipped
    between the two bounds, then the two logarithms and the two products. The body's zero is the zero word. -/
private theorem pair_at (e1 e2 z : FVec Ideal S8x128 .f32) (i : S8x128.Idx) :
    (addf
      (mulf e1 (log (minimumf (broadcast S8x128 (Scalar.ofBits (F := Ideal) .f32 0x3F7FFFEF#32))
        (maximumf (broadcast S8x128 (Scalar.ofBits (F := Ideal) .f32 0x358637BD#32)) (logistic z)))))
      (mulf e2 (log1p (subf (broadcast S8x128 (Scalar.ofBits (F := Ideal) .f32 0x00000000#32))
        (minimumf (broadcast S8x128 (Scalar.ofBits (F := Ideal) .f32 0x3F7FFFEF#32))
          (maximumf (broadcast S8x128 (Scalar.ofBits (F := Ideal) .f32 0x358637BD#32)) (logistic z))))))
      : FVec Ideal S8x128 .f32) i
      = pairLL (e1 i) (e2 i) (z i) := by
  unfold pairLL clipP
  show e1 i * Ideal.log (min (Ideal.ofBits .f32 0x3F7FFFEF#32) (max (Ideal.ofBits .f32 0x358637BD#32) (Ideal.logistic (z i))))
      + e2 i * Ideal.log1p (Ideal.ofBits .f32 0x00000000#32
          - min (Ideal.ofBits .f32 0x3F7FFFEF#32) (max (Ideal.ofBits .f32 0x358637BD#32) (Ideal.logistic (z i)))) = _
  rw [Ideal.ofBits_zero_f32]

/-- The tile's value for any weights and reads: the carried value plus, over the 8 rows and the 128 lanes, each
    pair's term at the logit `first read + (second read + the sum along the pitcher row of the last operand)`. -/
private theorem pay9_at (accv : FVec Ideal S1x1 .f32) (v42 v45 v64 v76 : FVec Ideal S8x128 .f32)
    (v79 : FVec Ideal S8x128x2048 .f32) (y : S1x1.Idx) :
    k0_pay9 (F := Ideal) accv v42 v45 v64 v76 v79 y
      = accv y + ∑ r : Fin 8, ∑ l : Fin 128,
          pairLL (v42 (ix2 r l)) (v45 (ix2 r l))
            (v64 (ix2 r l) + (v76 (ix2 r l) + ∑ j : Fin 2048, v79 (ix3 r l j))) := by
  obtain ⟨u, i, rfl⟩ : ∃ (u : Fin 1) (i : Fin 1), y = ix2 u i := ⟨y 0, y 1, eq_ix2 y⟩
  unfold k0_pay9
  refine (addf_apply _ _ _).trans ?_
  refine congrArg (accv (ix2 u i) + ·) ?_
  refine (shapeCast_a_1a_apply _ _ u i).trans ?_
  refine (colsum8 _ _ _ i).trans ?_
  refine Finset.sum_congr rfl fun r _ => ?_
  refine (cast_col _ r i).trans ?_
  refine (rowsum128 _ _ _ r).trans ?_
  refine Finset.sum_congr rfl fun l _ => ?_
  refine (pair_at _ _ _ (ix2 r l)).trans ?_
  refine congrArg (pairLL (v42 (ix2 r l)) (v45 (ix2 r l))) ?_
  refine (addf_apply _ _ _).trans ?_
  refine congrArg (v64 (ix2 r l) + ·) ?_
  refine (addf_apply _ _ _).trans ?_
  refine congrArg (v76 (ix2 r l) + ·) ?_
  exact rowsum2 _ _ _ r l

/-- THE TILE: the carried value plus the 8 × 128 pairs' terms, each pair's logit the two tables read at its
    two words. The tables' entries are real numbers (a row minus itself is then zero). -/
theorem tile_value (acc : FVec Ideal S1x1 .f32) (a b : Vec Ideal S8x128 .f32) (bi pj : Vec Ideal S8x128x1 .i32)
    (t1 : Vec Ideal S1x5120 .f32) (t2 : Vec Ideal S1x2048 .f32)
    (h1 : ∀ j, t1 j ≠ ⊤ ∧ t1 j ≠ ⊥) (h2 : ∀ j, t2 j ≠ ⊤ ∧ t2 j ≠ ⊥) (y : S1x1.Idx) :
    k0_pay9 (F := Ideal) acc (k0_pay12 a) (k0_pay13 b)
        (k0_pay14 pos1 (k0_pay4 t1) (k0_pay5 t1) bi)
        (k0_pay16 pos2 (k0_pay6 t2) pj)
        (k0_pay17 pos2 (k0_pay7 t2) pj) y
      = acc y + ∑ r : Fin 8, ∑ l : Fin 128,
          pairLL (a (ix2 r l)) (b (ix2 r l))
            (tblAt (row1 t1) (bi (ix3 r l 0)) + tblAt (row2 t2) (pj (ix3 r l 0))) := by
  rw [pay9_at]
  refine congrArg (acc y + ·) ?_
  refine Finset.sum_congr rfl fun r _ => Finset.sum_congr rfl fun l _ => ?_
  have ea : k0_pay12 (F := Ideal) a (ix2 r l) = a (ix2 r l) := by
    unfold k0_pay12
    rw [shapeCast_self]
  have eb : k0_pay13 (F := Ideal) b (ix2 r l) = b (ix2 r l) := by
    unfold k0_pay13
    rw [shapeCast_self]
  rw [ea, eb, read1 t1 h1, read2, read2_zero t2 h2, add_zero]

end Cert.KernelIdeal.TileValue

end
-- ==== Proof.HostIn.lean ====
/-
  What the region finds in its six input windows, as functions of the argument arrays.

  The host lines before the region scale the batter table by the mixing weight `w` and pad it with zeros to
  5120 entries (likewise the pitcher table by `1 − w`, to 2048), pad the two event arrays with zeros and the
  two word arrays with zero words to 10002432 entries, and lay the four streamed arrays out as 78144 rows of
  128. Grid point `t` stages rows `32 t … 32 t + 31` of the four streamed arrays and the two tables whole.
-/
import proofs.«427744_j82815559401913_4_alg».proof.Proof.Gen.KernelIdeal.Frame.Runs
import proofs.«427744_j82815559401913_4_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

set_option maxRecDepth 16384

noncomputable section

namespace Cert.KernelIdeal.HostIn

open Idealize.ShloMosaic Idealize.ShloMosaic.TcCoe Idealize.ShloMosaic.ValueIdx Idealize.SL.Sem
open Cert.KernelIdeal Cert.KernelIdeal.Gen Cert.LogLik

variable (m : (ℓ : Loc nD τ sig) → Buf (Elt Ideal) ℓ)

/-! ## The argument arrays of a core -/

abbrev a0 (c : Dev nD) : FVec Ideal S5000 .f32 := m ((c : Thread nD τ).loc main_arg0)
abbrev a1 (c : Dev nD) : FVec Ideal S2000 .f32 := m ((c : Thread nD τ).loc main_arg1)
abbrev a2 (c : Dev nD) : FVec Ideal S1 .f32 := m ((c : Thread nD τ).loc main_arg2)
abbrev a3 (c : Dev nD) : FVec Ideal S10000000 .f32 := m ((c : Thread nD τ).loc main_arg3)
abbrev a4 (c : Dev nD) : FVec Ideal S10000000 .f32 := m ((c : Thread nD τ).loc main_arg4)
abbrev a5 (c : Dev nD) : IVec S10000000 32 := m ((c : Thread nD τ).loc main_arg5)
abbrev a6 (c : Dev nD) : IVec S10000000 32 := m ((c : Thread nD τ).loc main_arg6)

/-- The mixing weight, the two tables, the two event arrays and the two word arrays as functions of a position. -/
abbrev wOf (c : Dev nD) : EReal := a2 m c (ix1 0)
abbrev v1Of (c : Dev nD) : Fin 5000 → EReal := fun j => a0 m c (ix1 j)
abbrev v2Of (c : Dev nD) : Fin 2000 → EReal := fun j => a1 m c (ix1 j)
abbrev e1Of (c : Dev nD) : Fin 10000000 → EReal := fun n => a3 m c (ix1 n)
abbrev e2Of (c : Dev nD) : Fin 10000000 → EReal := fun n => a4 m c (ix1 n)
abbrev bOf (c : Dev nD) : Fin 10000000 → BitVec 32 := fun n => a5 m c (ix1 n)
abbrev pOf (c : Dev nD) : Fin 10000000 → BitVec 32 := fun n => a6 m c (ix1 n)

/-! ## The six input blocks at a grid point -/

abbrev e1blk (c : Dev nD) (t : Fin cfg0.N) : Vec Ideal S32x128 .f32 := iblk m c 0 t
abbrev e2blk (c : Dev nD) (t : Fin cfg0.N) : Vec Ideal S32x128 .f32 := iblk m c 1 t
abbrev bblk (c : Dev nD) (t : Fin cfg0.N) : Vec Ideal S32x128x1 .i32 := iblk m c 2 t
abbrev pblk (c : Dev nD) (t : Fin cfg0.N) : Vec Ideal S32x128x1 .i32 := iblk m c 3 t
abbrev t1blk (c : Dev nD) (t : Fin cfg0.N) : Vec Ideal S1x5120 .f32 := iblk m c 4 t
abbrev t2blk (c : Dev nD) (t : Fin cfg0.N) : Vec Ideal S1x2048 .f32 := iblk m c 5 t

/-! ## The six staged arrays as terms of the argument arrays -/

/-- The padding value of the float pads: the zero word's float. -/
private abbrev zF : FVec Ideal S_ .f32 := constant (F := Ideal) S_ .f32 0x00000000#32
/-- The padding value of the word pads. -/
private abbrev zI : IVec S_ 32 := constantI S_ 32 0#32
/-- The padding value of the two tables' pads: the zero word converted. -/
private abbrev zT : FVec Ideal S_ .f32 := sitofp .f32 (constantI S_ 32 0#32)
/-- The mixing weight as a scalar. -/
private abbrev wS (c : Dev nD) : FVec Ideal S_ .f32 := shapeCast S_ (a2 m c) Facts₀.shapeCasts_S1_S_

private theorem V14_eq (c : Dev nD) : (V m c main_v14 : S78144x128.Idx → EReal)
    = shapeCast S78144x128 (pad S10002432 ![0] ![2432] ![0] (a3 m c) zF Facts₀.pads_S10000000_S10002432_024320 Facts₀.h_S_)
        Facts₀.shapeCasts_S10002432_S78144x128 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results
  try simp only [StableHlo.TRef.ofBuf, StableHlo.TRef.toBuf, cast_eq]
  rfl

private theorem V15_eq (c : Dev nD) : (V m c main_v15 : S78144x128.Idx → EReal)
    = shapeCast S78144x128 (pad S10002432 ![0] ![2432] ![0] (a4 m c) zF Facts₀.pads_S10000000_S10002432_024320 Facts₀.h_S_)
        Facts₀.shapeCasts_S10002432_S78144x128 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results
  try simp only [StableHlo.TRef.ofBuf, StableHlo.TRef.toBuf, cast_eq]
  rfl

private theorem V16_eq (c : Dev nD) : (V m c main_v16 : S78144x128x1.Idx → BitVec 32)
    = shapeCast S78144x128x1 (pad S10002432 ![0] ![2432] ![0] (a5 m c) zI Facts₀.pads_S10000000_S10002432_024320 Facts₀.h_S_)
        Facts₀.shapeCasts_S10002432_S78144x128x1 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results
  try simp only [StableHlo.TRef.ofBuf, StableHlo.TRef.toBuf, cast_eq]
  rfl

private theorem V17_eq (c : Dev nD) : (V m c main_v17 : S78144x128x1.Idx → BitVec 32)
    = shapeCast S78144x128x1 (pad S10002432 ![0] ![2432] ![0] (a6 m c) zI Facts₀.pads_S10000000_S10002432_024320 Facts₀.h_S_)
        Facts₀.shapeCasts_S10002432_S78144x128x1 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results
  try simp only [StableHlo.TRef.ofBuf, StableHlo.TRef.toBuf, cast_eq]
  rfl

private theorem V4_eq (c : Dev nD) : (V m c main_v4 : S1x5120.Idx → EReal)
    = shapeCast S1x5120 (pad S5120 ![0] ![120] ![0]
          (mulf (broadcastInDim S5000 ![] Facts₀.bcast_S_S5000 (wS m c)) (a0 m c)) zT
          Facts₀.pads_S5000_S5120_01200 Facts₀.h_S_)
        Facts₀.shapeCasts_S5120_S1x5120 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results
  try simp only [StableHlo.TRef.ofBuf, StableHlo.TRef.toBuf, cast_eq]
  rfl

private theorem V9_eq (c : Dev nD) : (V m c main_v9 : S1x2048.Idx → EReal)
    = shapeCast S1x2048 (pad S2048 ![0] ![48] ![0]
          (mulf (broadcastInDim S2000 ![] Facts₀.bcast_S_S2000
              (subf (constant (F := Ideal) S_ .f32 0x3F800000#32) (wS m c))) (a1 m c)) zT
          Facts₀.pads_S2000_S2048_0480 Facts₀.h_S_)
        Facts₀.shapeCasts_S2048_S1x2048 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results
  try simp only [StableHlo.TRef.ofBuf, StableHlo.TRef.toBuf, cast_eq]
  rfl

/-! ## Layout operations read at a position -/

section Generic
variable {α : Type}

/-- A vector continued at its end by a padding value, read at a position: the vector below its length, the
    padding value from there on. -/
private theorem pad_end_apply {n N hi : ℕ} (x : (⟨1, ![n]⟩ : Shape).Idx → α) {u : Shape} (v : u.Idx → α)
    (h : (⟨1, ![n]⟩ : Shape).Pads (![0] : Fin 1 → Nat) ![hi] ![0] ⟨1, ![N]⟩) (hu : 0 < u.numel) (j : Fin N) :
    pad ⟨1, ![N]⟩ ![0] ![hi] ![0] x v h hu (ix1 j)
      = if hj : j.val < n then x (ix1 ⟨j.val, hj⟩) else v (Shape.Idx.first hu) := by
  by_cases hj : j.val < n
  · rw [dif_pos hj]
    exact pad_apply_of_inside _ _ _ x v h hu (ix1 j) (ix1 ⟨j.val, hj⟩) (fun a => by
      match a with
      | ⟨0, _⟩ => show j.val = 0 + j.val * (0 + 1); omega)
  · rw [dif_neg hj]
    exact pad_apply_of_not_inside _ _ _ x v h hu (ix1 j) (0 : Fin 1) (fun hin => hj (by
      have h3 : (j.val - 0) / (0 + 1) < n := hin.2.2
      simpa using h3))

/-- A vector laid out as rows of `b`: row `i`, column `j` is position `i · b + j`. -/
private theorem shapeCast_rows_apply {N a b : ℕ} (x : (⟨1, ![N]⟩ : Shape).Idx → α)
    (h : (⟨1, ![N]⟩ : Shape).ShapeCasts ⟨2, ![a, b]⟩) (i : Fin a) (j : Fin b) (hlt : i.val * b + j.val < N) :
    shapeCast ⟨2, ![a, b]⟩ x h (ix2 i j) = x (ix1 ⟨i.val * b + j.val, hlt⟩) :=
  shapeCast_apply x h _ _ (by
    rw [Shape.rowMajor_val_two, Shape.rowMajor_val_one]
    rfl)

/-- The same with a trailing unit axis. -/
private theorem shapeCast_rows1_apply {N a b : ℕ} (x : (⟨1, ![N]⟩ : Shape).Idx → α)
    (h : (⟨1, ![N]⟩ : Shape).ShapeCasts ⟨3, ![a, b, 1]⟩) (i : Fin a) (j : Fin b) (u : Fin 1)
    (hlt : i.val * b + j.val < N) :
    shapeCast ⟨3, ![a, b, 1]⟩ x h (ix3 i j u) = x (ix1 ⟨i.val * b + j.val, hlt⟩) :=
  shapeCast_apply x h _ _ (by
    have hu : u.val = 0 := by omega
    rw [Shape.rowMajor_val_three, Shape.rowMajor_val_one]
    show i.val * b + j.val = (i.val * b + j.val) * 1 + u.val
    rw [hu, Nat.mul_one, Nat.add_zero])

end Generic

/-- The zero word converted to a float is zero. -/
private theorem zT_apply (i : S_.Idx) : zT i = 0 := by
  show (((0#32 : BitVec 32).toInt : ℝ) : EReal) = 0
  simp

/-- A one-entry vector read as a scalar is its entry. -/
private theorem scalar_apply (x : FVec Ideal S1 .f32) (i : S_.Idx) :
    shapeCast S_ x Facts₀.shapeCasts_S1_S_ i = x (ix1 0) :=
  shapeCast_apply x _ i (ix1 0) (by
    have h2 : (S_.rowMajor i).val < S_.numel := (S_.rowMajor i).isLt
    have hn : S_.numel = 1 := by decide
    rw [Shape.rowMajor_val_one]
    show (0 : ℕ) = _
    omega)

/-- A padded event array in rows of 128, at row `i`, lane `l`. -/
private theorem rowsF_apply (x : FVec Ideal S10000000 .f32) (i : Fin 78144) (l : Fin 128) :
    shapeCast S78144x128 (pad S10002432 ![0] ![2432] ![0] x zF Facts₀.pads_S10000000_S10002432_024320 Facts₀.h_S_)
        Facts₀.shapeCasts_S10002432_S78144x128 (ix2 i l)
      = padF (fun n => x (ix1 n)) (i.val * 128 + l.val) := by
  have hi := i.isLt
  have hl := l.isLt
  have hlt : i.val * 128 + l.val < 10002432 := by omega
  rw [shapeCast_rows_apply _ _ i l hlt, pad_end_apply]
  unfold padF
  by_cases h : i.val * 128 + l.val < 10000000
  · rw [dif_pos h, dif_pos h]
  · rw [dif_neg h, dif_neg h]
    exact Ideal.ofBits_zero_f32

/-- A padded word array in rows of 128 with a unit axis, at row `i`, lane `l`. -/
private theorem rowsI_apply (x : IVec S10000000 32) (i : Fin 78144) (l : Fin 128) (u : Fin 1) :
    shapeCast S78144x128x1 (pad S10002432 ![0] ![2432] ![0] x zI Facts₀.pads_S10000000_S10002432_024320 Facts₀.h_S_)
        Facts₀.shapeCasts_S10002432_S78144x128x1 (ix3 i l u)
      = padI (fun n => x (ix1 n)) (i.val * 128 + l.val) := by
  have hi := i.isLt
  have hl := l.isLt
  have hlt : i.val * 128 + l.val < 10002432 := by omega
  rw [shapeCast_rows1_apply _ _ i l u hlt, pad_end_apply]
  unfold padI
  by_cases h : i.val * 128 + l.val < 10000000
  · rw [dif_pos h, dif_pos h]
  · rw [dif_neg h, dif_neg h]
    rfl

/-- The batter table scaled by the weight and padded, as one row, at lane `j`. -/
private theorem tbl1_apply (w : FVec Ideal S_ .f32) (x : FVec Ideal S5000 .f32) (u : Fin 1) (j : Fin 5120) :
    shapeCast S1x5120 (pad S5120 ![0] ![120] ![0] (mulf (broadcastInDim S5000 ![] Facts₀.bcast_S_S5000 w) x) zT
          Facts₀.pads_S5000_S5120_01200 Facts₀.h_S_) Facts₀.shapeCasts_S5120_S1x5120 (ix2 u j)
      = if h : j.val < 5000 then w ix0 * x (ix1 ⟨j.val, h⟩) else 0 := by
  rw [shapeCast_a_1a_apply, pad_end_apply]
  by_cases h : j.val < 5000
  · rw [dif_pos h, dif_pos h, mulf_apply, broadcastInDim_apply _ _ w _ ix0 (fun a => a.elim0)]
  · rw [dif_neg h, dif_neg h]
    exact zT_apply _

/-- The pitcher table likewise. -/
private theorem tbl2_apply (w : FVec Ideal S_ .f32) (x : FVec Ideal S2000 .f32) (u : Fin 1) (j : Fin 2048) :
    shapeCast S1x2048 (pad S2048 ![0] ![48] ![0] (mulf (broadcastInDim S2000 ![] Facts₀.bcast_S_S2000 w) x) zT
          Facts₀.pads_S2000_S2048_0480 Facts₀.h_S_) Facts₀.shapeCasts_S2048_S1x2048 (ix2 u j)
      = if h : j.val < 2000 then w ix0 * x (ix1 ⟨j.val, h⟩) else 0 := by
  rw [shapeCast_a_1a_apply, pad_end_apply]
  by_cases h : j.val < 2000
  · rw [dif_pos h, dif_pos h, mulf_apply, broadcastInDim_apply _ _ w _ ix0 (fun a => a.elim0)]
  · rw [dif_neg h, dif_neg h]
    exact zT_apply _

/-! ## Where the windows' blocks sit: the printed index maps, decided over the grid -/

private theorem idx0 : ∀ t : Fin cfg0.N, win0_0.index t (0 : Fin 2) = t.val ∧ win0_0.index t (1 : Fin 2) = 0 :=
  (by decide +kernel : ∀ t : Fin grid0.N, _)
private theorem idx1 : ∀ t : Fin cfg0.N, win0_1.index t (0 : Fin 2) = t.val ∧ win0_1.index t (1 : Fin 2) = 0 :=
  (by decide +kernel : ∀ t : Fin grid0.N, _)
private theorem idx2 : ∀ t : Fin cfg0.N, win0_2.index t (0 : Fin 3) = t.val ∧ win0_2.index t (1 : Fin 3) = 0
    ∧ win0_2.index t (2 : Fin 3) = 0 :=
  (by decide +kernel : ∀ t : Fin grid0.N, _)
private theorem idx3 : ∀ t : Fin cfg0.N, win0_3.index t (0 : Fin 3) = t.val ∧ win0_3.index t (1 : Fin 3) = 0
    ∧ win0_3.index t (2 : Fin 3) = 0 :=
  (by decide +kernel : ∀ t : Fin grid0.N, _)
private theorem idx4 : ∀ t : Fin cfg0.N, win0_4.index t (0 : Fin 2) = 0 ∧ win0_4.index t (1 : Fin 2) = 0 :=
  (by decide +kernel : ∀ t : Fin grid0.N, _)
private theorem idx5 : ∀ t : Fin cfg0.N, win0_5.index t (0 : Fin 2) = 0 ∧ win0_5.index t (1 : Fin 2) = 0 :=
  (by decide +kernel : ∀ t : Fin grid0.N, _)

/-- A grid point's number is below the grid's size, as a literal. -/
private theorem t_lt (t : Fin cfg0.N) : t.val < 2442 := lt_of_lt_of_eq t.isLt N_0

/-- Row `r`, lane `l` of point `t`'s first event block is position `(32 t + r) · 128 + l` of the padded array. -/
theorem e1blk_apply (c : Dev nD) (t : Fin cfg0.N) (r : Fin 32) (l : Fin 128) :
    e1blk m c t (ix2 r l) = padF (e1Of m c) ((t.val * 32 + r.val) * 128 + l.val) := by
  have ht := t_lt t
  have hr := r.isLt
  obtain ⟨e0, e1⟩ := idx0 t
  have hidx : ((cfg0.win 0).blk t).view.emb (ix2 r l) = ix2 (⟨t.val * 32 + r.val, by omega⟩ : Fin 78144) l := by
    funext a; apply Fin.ext
    match a with
    | ⟨0, _⟩ => show win0_0.index t (0 : Fin 2) * 32 + 1 * r.val = t.val * 32 + r.val; rw [e0]; omega
    | ⟨1, _⟩ => show win0_0.index t (1 : Fin 2) * 128 + 1 * l.val = l.val; rw [e1]; omega
  show V m c main_v14 (((cfg0.win 0).blk t).view.emb (ix2 r l)) = _
  rw [hidx, V14_eq, rowsF_apply]

theorem e2blk_apply (c : Dev nD) (t : Fin cfg0.N) (r : Fin 32) (l : Fin 128) :
    e2blk m c t (ix2 r l) = padF (e2Of m c) ((t.val * 32 + r.val) * 128 + l.val) := by
  have ht := t_lt t
  have hr := r.isLt
  obtain ⟨e0, e1⟩ := idx1 t
  have hidx : ((cfg0.win 1).blk t).view.emb (ix2 r l) = ix2 (⟨t.val * 32 + r.val, by omega⟩ : Fin 78144) l := by
    funext a; apply Fin.ext
    match a with
    | ⟨0, _⟩ => show win0_1.index t (0 : Fin 2) * 32 + 1 * r.val = t.val * 32 + r.val; rw [e0]; omega
    | ⟨1, _⟩ => show win0_1.index t (1 : Fin 2) * 128 + 1 * l.val = l.val; rw [e1]; omega
  show V m c main_v15 (((cfg0.win 1).blk t).view.emb (ix2 r l)) = _
  rw [hidx, V15_eq, rowsF_apply]

/-- Likewise the batter words and the pitcher words. -/
theorem bblk_apply (c : Dev nD) (t : Fin cfg0.N) (r : Fin 32) (l : Fin 128) :
    bblk m c t (ix3 r l 0) = padI (bOf m c) ((t.val * 32 + r.val) * 128 + l.val) := by
  have ht := t_lt t
  have hr := r.isLt
  obtain ⟨e0, e1, e2⟩ := idx2 t
  have hidx : ((cfg0.win 2).blk t).view.emb (ix3 r l (0 : Fin 1))
      = ix3 (⟨t.val * 32 + r.val, by omega⟩ : Fin 78144) l (0 : Fin 1) := by
    funext a; apply Fin.ext
    match a with
    | ⟨0, _⟩ => show win0_2.index t (0 : Fin 3) * 32 + 1 * r.val = t.val * 32 + r.val; rw [e0]; omega
    | ⟨1, _⟩ => show win0_2.index t (1 : Fin 3) * 128 + 1 * l.val = l.val; rw [e1]; omega
    | ⟨2, _⟩ => show win0_2.index t (2 : Fin 3) * 1 + 1 * 0 = 0; rw [e2]
  show V m c main_v16 (((cfg0.win 2).blk t).view.emb (ix3 r l (0 : Fin 1))) = _
  rw [hidx, V16_eq, rowsI_apply]

theorem pblk_apply (c : Dev nD) (t : Fin cfg0.N) (r : Fin 32) (l : Fin 128) :
    pblk m c t (ix3 r l 0) = padI (pOf m c) ((t.val * 32 + r.val) * 128 + l.val) := by
  have ht := t_lt t
  have hr := r.isLt
  obtain ⟨e0, e1, e2⟩ := idx3 t
  have hidx : ((cfg0.win 3).blk t).view.emb (ix3 r l (0 : Fin 1))
      = ix3 (⟨t.val * 32 + r.val, by omega⟩ : Fin 78144) l (0 : Fin 1) := by
    funext a; apply Fin.ext
    match a with
    | ⟨0, _⟩ => show win0_3.index t (0 : Fin 3) * 32 + 1 * r.val = t.val * 32 + r.val; rw [e0]; omega
    | ⟨1, _⟩ => show win0_3.index t (1 : Fin 3) * 128 + 1 * l.val = l.val; rw [e1]; omega
    | ⟨2, _⟩ => show win0_3.index t (2 : Fin 3) * 1 + 1 * 0 = 0; rw [e2]
  show V m c main_v17 (((cfg0.win 3).blk t).view.emb (ix3 r l (0 : Fin 1))) = _
  rw [hidx, V17_eq, rowsI_apply]

/-- The batter table's block, at every point: the scaled table, then zeros. -/
theorem t1blk_apply (c : Dev nD) (t : Fin cfg0.N) (j : Fin 5120) :
    t1blk m c t (ix2 0 j) = if h : j.val < 5000 then wOf m c * v1Of m c ⟨j.val, h⟩ else 0 := by
  obtain ⟨e0, e1⟩ := idx4 t
  have hidx : ((cfg0.win 4).blk t).view.emb (ix2 (0 : Fin 1) j) = ix2 (0 : Fin 1) j := by
    funext a; apply Fin.ext
    match a with
    | ⟨0, _⟩ => show win0_4.index t (0 : Fin 2) * 1 + 1 * 0 = 0; rw [e0]
    | ⟨1, _⟩ => show win0_4.index t (1 : Fin 2) * 5120 + 1 * j.val = j.val; rw [e1]; omega
  show V m c main_v4 (((cfg0.win 4).blk t).view.emb (ix2 (0 : Fin 1) j)) = _
  rw [hidx, V4_eq, tbl1_apply, show wS m c ix0 = wOf m c from scalar_apply _ _]

/-- The pitcher table's block, at every point. -/
theorem t2blk_apply (c : Dev nD) (t : Fin cfg0.N) (j : Fin 2048) :
    t2blk m c t (ix2 0 j) = if h : j.val < 2000 then coW (wOf m c) * v2Of m c ⟨j.val, h⟩ else 0 := by
  obtain ⟨e0, e1⟩ := idx5 t
  have hidx : ((cfg0.win 5).blk t).view.emb (ix2 (0 : Fin 1) j) = ix2 (0 : Fin 1) j := by
    funext a; apply Fin.ext
    match a with
    | ⟨0, _⟩ => show win0_5.index t (0 : Fin 2) * 1 + 1 * 0 = 0; rw [e0]
    | ⟨1, _⟩ => show win0_5.index t (1 : Fin 2) * 2048 + 1 * j.val = j.val; rw [e1]; omega
  show V m c main_v9 (((cfg0.win 5).blk t).view.emb (ix2 (0 : Fin 1) j)) = _
  rw [hidx, V9_eq, tbl2_apply, subf_apply, show wS m c ix0 = wOf m c from scalar_apply _ _]
  rfl

/-! ## The staged tables hold real numbers -/

/-- A product of two real numbers is real. -/
private theorem mul_real {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

/-- The complement of a real weight is real. -/
private theorem coW_real {w : EReal} (hw : w ≠ ⊤ ∧ w ≠ ⊥) : coW w ≠ ⊤ ∧ coW w ≠ ⊥ := by
  have h1 : Ideal.ofBits .f32 0x3F800000#32 = 1 := by
    simp [Ideal.ofBits, Ideal.ieee, -EReal.coe_mul]; norm_num
  lift w to ℝ using hw
  unfold coW
  rw [h1, ← EReal.coe_one, ← EReal.coe_sub]
  exact ⟨EReal.coe_ne_top _, EReal.coe_ne_bot _⟩

/-- With a real weight and real table entries, the staged tables hold real numbers. -/
theorem t1blk_real (c : Dev nD) (t : Fin cfg0.N) (hw : wOf m c ≠ ⊤ ∧ wOf m c ≠ ⊥)
    (hv : ∀ j, v1Of m c j ≠ ⊤ ∧ v1Of m c j ≠ ⊥) (y : S1x5120.Idx) : t1blk m c t y ≠ ⊤ ∧ t1blk m c t y ≠ ⊥ := by
  obtain ⟨u, j, rfl⟩ : ∃ (u : Fin 1) (j : Fin 5120), y = ix2 u j := ⟨y 0, y 1, eq_ix2 y⟩
  obtain rfl : u = 0 := Subsingleton.elim _ _
  rw [t1blk_apply]
  by_cases h : j.val < 5000
  · rw [dif_pos h]
    exact mul_real hw (hv _)
  · rw [dif_neg h]
    exact ⟨EReal.zero_ne_top, EReal.zero_ne_bot⟩

theorem t2blk_real (c : Dev nD) (t : Fin cfg0.N) (hw : wOf m c ≠ ⊤ ∧ wOf m c ≠ ⊥)
    (hv : ∀ j, v2Of m c j ≠ ⊤ ∧ v2Of m c j ≠ ⊥) (y : S1x2048.Idx) : t2blk m c t y ≠ ⊤ ∧ t2blk m c t y ≠ ⊥ := by
  obtain ⟨u, j, rfl⟩ : ∃ (u : Fin 1) (j : Fin 2048), y = ix2 u j := ⟨y 0, y 1, eq_ix2 y⟩
  obtain rfl : u = 0 := Subsingleton.elim _ _
  rw [t2blk_apply]
  by_cases h : j.val < 2000
  · rw [dif_pos h]
    exact mul_real (coW_real hw) (hv _)
  · rw [dif_neg h]
    exact ⟨EReal.zero_ne_top, EReal.zero_ne_bot⟩

end Cert.KernelIdeal.HostIn

end
-- ==== Proof.Args.lean ====
/-
  The result as a function of the seven argument arrays themselves, and the reading of a table that has been
  scaled and padded with zeros.
-/
import proofs.«427744_j82815559401913_4_alg».proof.Proof.Spec
import Idealize.ShloMosaic.Lib.ValueIdx

noncomputable section

namespace Cert.LogLik

open Idealize.ShloMosaic Idealize.ShloMosaic.ValueIdx

/-- The result from the argument arrays: the two tables, the one-entry weight, the two event arrays and the
    two word arrays, each read by position. -/
def resultOf (a0 : (⟨1, ![5000]⟩ : Shape).Idx → EReal) (a1 : (⟨1, ![2000]⟩ : Shape).Idx → EReal)
    (a2 : (⟨1, ![1]⟩ : Shape).Idx → EReal) (a3 a4 : (⟨1, ![10000000]⟩ : Shape).Idx → EReal)
    (a5 a6 : (⟨1, ![10000000]⟩ : Shape).Idx → BitVec 32) : EReal :=
  result (a2 (ix1 0)) (fun j => a0 (ix1 j)) (fun j => a1 (ix1 j)) (fun n => a3 (ix1 n)) (fun n => a4 (ix1 n))
    (fun n => a5 (ix1 n)) (fun n => a6 (ix1 n))

/-- A table scaled entry by entry and continued by zeros, read at a word, is the scale times the table read
    at the word: inside the table both are the scaled entry, and outside both are zero. -/
theorem tblAt_scaled_pad {N M : ℕ} (hNM : N ≤ M) (s : EReal) (v : Fin N → EReal) (b : BitVec 32) :
    tblAt (fun j : Fin M => if h : j.val < N then s * v ⟨j.val, h⟩ else 0) b = s * tblAt v b := by
  unfold tblAt
  by_cases h1 : b.toNat < N
  · have h2 : b.toNat < M := lt_of_lt_of_le h1 hNM
    rw [dif_pos h2, dif_pos h1]
    exact dif_pos h1
  · rw [dif_neg h1, mul_zero]
    by_cases h2 : b.toNat < M
    · rw [dif_pos h2]; exact dif_neg h1
    · exact dif_neg h2

end Cert.LogLik

end
-- ==== Proof.Accum.lean ====
/-
  The carried accumulator after every grid point, as the tiled accumulation of the padded terms.

  Grid point `t` (of 2 × 1221, half `t / 1221`, step `t % 1221`) stages rows `32 t … 32 t + 31` of the padded
  arrays. Its loop adds, tile by tile, the terms of those rows' positions; the point then adds the loop's value
  onto the accumulator, which it has reset to zero at a half's first step. So after point `t` the accumulator
  holds the half's terms up to and including block `t`, and at a half's last step that value is the output
  block.
-/
import proofs.«427744_j82815559401913_4_alg».proof.Proof.LoopValue
import proofs.«427744_j82815559401913_4_alg».proof.Proof.TileValue
import proofs.«427744_j82815559401913_4_alg».proof.Proof.HostIn
import proofs.«427744_j82815559401913_4_alg».proof.Proof.Args

set_option maxRecDepth 16384

noncomputable section

namespace Cert.KernelIdeal.Accum

open Idealize.ShloMosaic Idealize.ShloMosaic.TcCoe Idealize.ShloMosaic.ValueIdx Idealize.SL.Sem
open Cert.KernelIdeal Cert.KernelIdeal.Gen Cert.KernelIdeal.LoopValue Cert.KernelIdeal.HostIn Cert.LogLik

variable (m : (ℓ : Loc nD τ sig) → Buf (Elt Ideal) ℓ)

/-- The mixing weight and both tables hold real numbers on core `c`. -/
structure RealTables (c : Dev nD) : Prop where
  w : wOf m c ≠ ⊤ ∧ wOf m c ≠ ⊥
  v1 : ∀ j, v1Of m c j ≠ ⊤ ∧ v1Of m c j ≠ ⊥
  v2 : ∀ j, v2Of m c j ≠ ⊤ ∧ v2Of m c j ≠ ⊥

/-- The padded terms of core `c`'s argument arrays, by position. -/
abbrev termOf (c : Dev nD) : ℕ → EReal :=
  term (wOf m c) (v1Of m c) (v2Of m c) (e1Of m c) (e2Of m c) (bOf m c) (pOf m c)

/-! ## A trip's tile -/

theorem off2_eq : ∀ k : Fin k0_t1_loop.trips, k0_off2 k = ![8 * k.val, 0] := by decide
theorem off1_eq : ∀ k : Fin k0_t1_loop.trips, k0_off1 k = ![8 * k.val, 0, 0] := by decide

theorem lt4 (k : Fin k0_t1_loop.trips) : k.val < 4 := lt_of_lt_of_eq k.isLt trips_eq

/-- Row `r`, lane `l` of trip `k`'s tile is row `8k + r` of the block. -/
theorem tile2_apply {e : EltTy} (x : Vec Ideal S32x128 e) (k : Fin k0_t1_loop.trips) (r : Fin 8) (l : Fin 128) :
    tile2 x k (ix2 r l) = x (ix2 ⟨8 * k.val + r.val, by have := lt4 k; omega⟩ l) := by
  unfold tile2
  congr 1
  funext a
  apply Fin.ext
  match a with
  | ⟨0, _⟩ =>
    show k0_off2 k 0 + 1 * r.val = 8 * k.val + r.val
    rw [off2_eq k]; simp
  | ⟨1, _⟩ =>
    show k0_off2 k 1 + 1 * l.val = l.val
    rw [off2_eq k]; simp

theorem tile3_apply {e : EltTy} (x : Vec Ideal S32x128x1 e) (k : Fin k0_t1_loop.trips) (r : Fin 8) (l : Fin 128) :
    tile3 x k (ix3 r l 0) = x (ix3 ⟨8 * k.val + r.val, by have := lt4 k; omega⟩ l 0) := by
  unfold tile3
  congr 1
  funext a
  apply Fin.ext
  match a with
  | ⟨0, _⟩ =>
    show k0_off1 k 0 + 1 * r.val = 8 * k.val + r.val
    rw [off1_eq k]; simp
  | ⟨1, _⟩ =>
    show k0_off1 k 1 + 1 * l.val = l.val
    rw [off1_eq k]; simp
  | ⟨2, _⟩ =>
    show k0_off1 k 2 + 1 * 0 = 0
    rw [off1_eq k]; simp

/-- The staged batter table read at a word is the weight times the table read at the word; likewise the pitcher's. -/
theorem tbl1_eq (c : Dev nD) (t : Fin cfg0.N) (b : BitVec 32) :
    tblAt (TileValue.row1 (t1blk m c t)) b = wOf m c * tblAt (v1Of m c) b := by
  have e : TileValue.row1 (t1blk m c t)
      = fun j : Fin 5120 => if h : j.val < 5000 then wOf m c * v1Of m c ⟨j.val, h⟩ else 0 :=
    funext fun j => t1blk_apply m c t j
  rw [e]
  exact tblAt_scaled_pad (by norm_num) _ _ _

theorem tbl2_eq (c : Dev nD) (t : Fin cfg0.N) (b : BitVec 32) :
    tblAt (TileValue.row2 (t2blk m c t)) b = coW (wOf m c) * tblAt (v2Of m c) b := by
  have e : TileValue.row2 (t2blk m c t)
      = fun j : Fin 2048 => if h : j.val < 2000 then coW (wOf m c) * v2Of m c ⟨j.val, h⟩ else 0 :=
    funext fun j => t2blk_apply m c t j
  rw [e]
  exact tblAt_scaled_pad (by norm_num) _ _ _

/-- ONE TRIP at point `t`: the carried value plus the terms of tile `k` of block `t`. -/
theorem trip_eq (c : Dev nD) (t : Fin cfg0.N) (hR : RealTables m c) (k : Fin k0_t1_loop.trips)
    (acc : FVec Ideal S1x1 .f32) (y : S1x1.Idx) :
    tripVal (F := Ideal) (e1blk m c t) (e2blk m c t) (bblk m c t) (pblk m c t) (t1blk m c t) (t2blk m c t) k acc y
      = acc y + tileSum (termOf m c) (t.val * 32 + 8 * k.val) := by
  unfold tripVal
  refine (TileValue.tile_value acc (tile2 (e1blk m c t) k) (tile2 (e2blk m c t) k) (tile3 (bblk m c t) k) (tile3 (pblk m c t) k)
    (t1blk m c t) (t2blk m c t) (t1blk_real m c t hR.w hR.v1) (t2blk_real m c t hR.w hR.v2) y).trans ?_
  refine congrArg (fun s => acc y + s) ?_
  unfold tileSum rowSum
  refine Finset.sum_congr rfl fun r _ => Finset.sum_congr rfl fun l _ => ?_
  rw [tile2_apply, tile2_apply, tile3_apply, tile3_apply, e1blk_apply, e2blk_apply, bblk_apply, pblk_apply,
    tbl1_eq, tbl2_eq]
  have hn : (t.val * 32 + (8 * k.val + r.val)) * 128 + l.val = (t.val * 32 + 8 * k.val + r.val) * 128 + l.val := by ring
  simp only [hn]
  rfl

/-! ## A point's loop -/

theorem pay8_apply (y : S1x1.Idx) : k0_pay8 (F := Ideal) y = 0 := by
  show Ideal.ofBits .f32 0x00000000#32 = 0
  exact Ideal.ofBits_zero_f32

theorem pay1_apply (y : S1x1.Idx) : k0_pay1 (F := Ideal) y = 0 := by
  unfold k0_pay1
  rw [shapeCast_self]
  show Ideal.ofBits .f32 0x00000000#32 = 0
  exact Ideal.ofBits_zero_f32

theorem pay10_apply (v23 v24 : FVec Ideal S1x1 .f32) (y : S1x1.Idx) : k0_pay10 (F := Ideal) v23 v24 y = v24 y + v23 y := by
  unfold k0_pay10
  rw [shapeCast_self]
  rfl

/-- THE LOOP at point `t`: the terms of block `t`, tile after tile onto zero. -/
theorem loop_eq (c : Dev nD) (t : Fin cfg0.N) (hR : RealTables m c) (y : S1x1.Idx) :
    loopVal (F := Ideal) (e1blk m c t) (e2blk m c t) (bblk m c t) (pblk m c t) (t1blk m c t) (t2blk m c t) y = stepSum (termOf m c) t.val := by
  unfold loopVal
  rw [trip_eq m c t hR, trip_eq m c t hR, trip_eq m c t hR, trip_eq m c t hR, pay8_apply]
  unfold stepSum
  rfl

/-! ## The accumulator, point by point -/

/-- AFTER POINT `n` the accumulator holds its half's running sum at its step. -/
theorem scratch_eq (c : Dev nD) (hR : RealTables m c) :
    ∀ (n : ℕ) (hn : n < cfg0.N) (y : S1x1.Idx),
      (outsAt0 m c n hn).2 y = accAt (termOf m c) (n / 1221) (n % 1221) := by
  intro n
  induction n with
  | zero =>
    intro hn y
    let t : Fin cfg0.N := ⟨0, hn⟩
    have h0 : t.val % 1221 = 0 := rfl
    have h1 : ¬ t.val % 1221 = 1220 := by show ¬ ((0 : ℕ) % 1221 = 1220); decide
    rw [show outsAt0 m c 0 hn = outsAt0 m c t.val t.isLt from rfl, outsAt0_A m c t h0 h1]
    dsimp only
    refine (congrFun (sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      ((hcond0_0 t).mpr h0) (fun h => h1 ((hcond0_1 t).mp h)) (e1blk m c t) (e2blk m c t) (bblk m c t) (pblk m c t) (t1blk m c t) (t2blk m c t)) y).trans ?_
    rw [pay10_apply, pay1_apply, loop_eq m c t hR]
    rfl
  | succ n ih =>
    intro hn y
    let t : Fin cfg0.N := ⟨n + 1, hn⟩
    have hN : n + 1 < 2442 := lt_of_lt_of_eq hn (show cfg0.N = 2442 from N_0)
    have ihn := ih (Nat.lt_of_succ_lt hn)
    by_cases h0 : (n + 1) % 1221 = 0
    · have h1 : ¬ (n + 1) % 1221 = 1220 := by omega
      rw [show outsAt0 m c (n + 1) hn = outsAt0 m c t.val t.isLt from rfl, outsAt0_A m c t h0 h1]
      dsimp only
      refine (congrFun (sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
        ((hcond0_0 t).mpr h0) (fun h => h1 ((hcond0_1 t).mp h)) (e1blk m c t) (e2blk m c t) (bblk m c t) (pblk m c t) (t1blk m c t) (t2blk m c t)) y).trans ?_
      rw [pay10_apply, pay1_apply, loop_eq m c t hR, h0]
      have hq : (n + 1) / 1221 * 1221 = n + 1 := by omega
      show 0 + stepSum (termOf m c) (n + 1) = 0 + stepSum (termOf m c) ((n + 1) / 1221 * 1221)
      rw [hq]
    · have hprev : (outsAt0 m c (t.val - 1) (Nat.lt_of_le_of_lt (Nat.sub_le _ _) t.isLt)).2
          = (outsAt0 m c n (Nat.lt_of_succ_lt hn)).2 := rfl
      have hdiv : (n + 1) / 1221 = n / 1221 := by omega
      have hmod : (n + 1) % 1221 = n % 1221 + 1 := by omega
      have hpos : (n + 1) / 1221 * 1221 + (n % 1221 + 1) = n + 1 := by omega
      by_cases h1 : (n + 1) % 1221 = 1220
      · rw [show outsAt0 m c (n + 1) hn = outsAt0 m c t.val t.isLt from rfl, outsAt0_C m c t h0 h1]
        dsimp only
        refine (congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
          (fun h => h0 ((hcond0_0 t).mp h)) ((hcond0_1 t).mpr h1) (e1blk m c t) (e2blk m c t) (bblk m c t) (pblk m c t) (t1blk m c t) (t2blk m c t)
          (outsAt0 m c (t.val - 1) (Nat.lt_of_le_of_lt (Nat.sub_le _ _) t.isLt)).2) y).trans ?_
        rw [pay10_apply, loop_eq m c t hR, hprev, ihn y, hmod, ← hdiv]
        show accAt (termOf m c) ((n + 1) / 1221) (n % 1221) + stepSum (termOf m c) (n + 1)
          = accAt (termOf m c) ((n + 1) / 1221) (n % 1221) + stepSum (termOf m c) ((n + 1) / 1221 * 1221 + (n % 1221 + 1))
        rw [hpos]
      · rw [show outsAt0 m c (n + 1) hn = outsAt0 m c t.val t.isLt from rfl, outsAt0_B m c t h0 h1]
        dsimp only
        refine (congrFun (sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
          (fun h => h0 ((hcond0_0 t).mp h)) (fun h => h1 ((hcond0_1 t).mp h)) (e1blk m c t) (e2blk m c t) (bblk m c t) (pblk m c t) (t1blk m c t) (t2blk m c t)
          (outsAt0 m c (t.val - 1) (Nat.lt_of_le_of_lt (Nat.sub_le _ _) t.isLt)).2) y).trans ?_
        rw [pay10_apply, loop_eq m c t hR, hprev, ihn y, hmod, ← hdiv]
        show accAt (termOf m c) ((n + 1) / 1221) (n % 1221) + stepSum (termOf m c) (n + 1)
          = accAt (termOf m c) ((n + 1) / 1221) (n % 1221) + stepSum (termOf m c) ((n + 1) / 1221 * 1221 + (n % 1221 + 1))
        rw [hpos]

/-- AT A HALF'S LAST STEP the output block is the half's total. -/
theorem out6_eq (c : Dev nD) (hR : RealTables m c) (t : Fin cfg0.N) (h0 : ¬ t.val % 1221 = 0) (h1 : t.val % 1221 = 1220)
    (y : S1x1x1.Idx) :
    (outsAt0 m c t.val t.isLt).1 y = accAt (termOf m c) (t.val / 1221) 1220 := by
  have hs := scratch_eq m c hR t.val t.isLt (ix2 0 0)
  rw [outsAt0_C m c t h0 h1] at hs ⊢
  dsimp only at hs ⊢
  rw [congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (fun h => h0 ((hcond0_0 t).mp h)) ((hcond0_1 t).mpr h1) (e1blk m c t) (e2blk m c t) (bblk m c t) (pblk m c t) (t1blk m c t) (t2blk m c t)
      (outsAt0 m c (t.val - 1) (Nat.lt_of_le_of_lt (Nat.sub_le _ _) t.isLt)).2) (ix2 0 0), h1] at hs
  refine (congrFun (out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (fun h => h0 ((hcond0_0 t).mp h)) ((hcond0_1 t).mpr h1) (e1blk m c t) (e2blk m c t) (bblk m c t) (pblk m c t) (t1blk m c t) (t2blk m c t)
      (outsAt0 m c (t.val - 1) (Nat.lt_of_le_of_lt (Nat.sub_le _ _) t.isLt)).2) y).trans ?_
  rw [← hs]
  unfold k0_pay11
  exact shapeCast_apply _ _ y (ix2 0 0) (by
    have n2 : S1x1.numel = 1 := by decide
    have n3 : S1x1x1.numel = 1 := by decide
    have e2 : ∀ j : S1x1.Idx, (S1x1.rowMajor j).val = 0 := fun j => by have := (S1x1.rowMajor j).isLt; omega
    have e3 : ∀ j : S1x1x1.Idx, (S1x1x1.rowMajor j).val = 0 := fun j => by have := (S1x1x1.rowMajor j).isLt; omega
    rw [e2, e3])

end Cert.KernelIdeal.Accum

end
-- ==== Proof.Final.lean ====
/-
  From the accumulator to the kernel's result.

  The output array has one entry per half. The pipeline writes an output block back only at a half's last step,
  where the block holds the half's total; the two blocks are the array's two entries. After the region the host
  recasts the array to two entries and adds them onto zero: by the tiled accumulation's arithmetic that is the
  sum of all the pairs' terms, the result.
-/
import proofs.«427744_j82815559401913_4_alg».proof.Proof.Accum
import Idealize.ShloMosaic.Lib.StableHlo.Run

set_option maxRecDepth 16384

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.HostIn Cert.KernelIdeal.Accum Cert.LogLik

variable (m : (ℓ : Loc nD τ sig) → Buf (Elt Ideal) ℓ) (ρ : Dev nD → PrngReg)

/-- The output array as it ends: entry `q` is half `q`'s total. -/
abbrev halves (c : Dev nD) : FVec Ideal S2x1x1 .f32 := fun i => accAt (termOf m c) (i 0).val 1220

/-- The output block of point `t` is block `(t / 1221, 0, 0)` of the array: the half the point belongs to. -/
private theorem half_index : ∀ t : Fin cfg0.N, win0_6.index t (0 : Fin 3) = t.val / 1221
    ∧ win0_6.index t (1 : Fin 3) = 0 ∧ win0_6.index t (2 : Fin 3) = 0 :=
  (by decide +kernel : ∀ t : Fin grid0.N, _)

/-- WHAT A HALF'S LAST STEP WRITES BACK is the half's entry of `halves`: the block is the one entry
    `(t / 1221, 0, 0)`, and at that step it holds the half's total. -/
private theorem written_eq (c : Dev nD) (hR : RealTables m c) (t : Fin cfg0.N) (hf : (cfg0.win 6).flush t = true) :
    (dats m 0 c).flushed 6 t = ((cfg0.win 6).blk t).view.read (Elt Ideal) (halves m c) := by
  have h1 : t.val % 1221 = 1220 := (flush0_6 t).mp hf
  have h0 : ¬ t.val % 1221 = 0 := by omega
  show (cfg0.win 6).cut (grid0.coords t) ((dats m 0 c).after 6 t) = _
  rw [after0_6]
  funext y
  refine (out6_eq m c hR t h0 h1 y).trans ?_
  show accAt (termOf m c) (t.val / 1221) 1220 = accAt (termOf m c) ((((cfg0.win 6).blk t).view.emb y) 0).val 1220
  have e : ((((cfg0.win 6).blk t).view.emb y) 0).val = t.val / 1221 := by
    show win0_6.index t (0 : Fin 3) * 1 + 1 * (y 0).val = t.val / 1221
    have hi := (half_index t).1
    have hy : (y 0).val < 1 := (y 0).isLt
    omega
  rw [e]

/-- An entry of the array is in point `t`'s block iff each coordinate is in the block's range on its axis. -/
private theorem mem_block (t : Fin cfg0.N) (i : S2x1x1.Idx) :
    i ∈ ((cfg0.win 6).blk t).view.set ↔ ∀ a : Fin 3, win0_6.index t a * S1x1x1.size a ≤ (i a).val ∧ (i a).val < win0_6.index t a * S1x1x1.size a + S1x1x1.size a := by
  show i ∈ ((View.whole main_v18).slice (win0_6.rect t)).set ↔ _
  rw [View.set_slice_whole, Rect.mem_set_unit]
  exact Iff.rfl

/-- EVERY ENTRY IS WRITTEN: entry `q` by the last step of half `q`, point `1221 q + 1220`. -/
private theorem covered (i : S2x1x1.Idx) :
    ∃ t : Fin cfg0.N, (cfg0.win 6).flush t = true ∧ i ∈ ((cfg0.win 6).blk t).view.set := by
  have hi0 : (i 0).val < 2 := (i 0).isLt
  have hi1 : (i 1).val < 1 := (i 1).isLt
  have hi2 : (i 2).val < 1 := (i 2).isLt
  have hN : cfg0.N = 2442 := N_0
  let t : Fin cfg0.N := ⟨(i 0).val * 1221 + 1220, by rw [hN]; omega⟩
  have ht : t.val = (i 0).val * 1221 + 1220 := rfl
  refine ⟨t, (flush0_6 t).mpr (by rw [ht]; omega), ?_⟩
  rw [mem_block]
  obtain ⟨e0, e1, e2⟩ := half_index t
  intro a
  match a with
  | ⟨0, _⟩ => show win0_6.index t (0 : Fin 3) * 1 ≤ (i 0).val ∧ (i 0).val < win0_6.index t (0 : Fin 3) * 1 + 1; rw [e0, ht]; omega
  | ⟨1, _⟩ => show win0_6.index t (1 : Fin 3) * 1 ≤ (i 1).val ∧ (i 1).val < win0_6.index t (1 : Fin 3) * 1 + 1; rw [e1]; omega
  | ⟨2, _⟩ => show win0_6.index t (2 : Fin 3) * 1 ≤ (i 2).val ∧ (i 2).val < win0_6.index t (2 : Fin 3) * 1 + 1; rw [e2]; omega

/-- THE OUTPUT ARRAY after the run. -/
theorem final6 (c : Dev nD) (hR : RealTables m c) : (dats m 0 c).arrAt 6 cfg0.N = halves m c := by
  exact (dats m 0 c).arrAt_eq_of_cover 6 (halves m c) (fun t hf => written_eq m c hR t hf) (fun i => covered i)

/-- A rank-1 index set is its one coordinate's range. -/
private def idxEquiv1 {n : Nat} : (⟨1, ![n]⟩ : Shape).Idx ≃ Fin n where
  toFun i := i 0
  invFun a := ix1 a
  left_inv i := (eq_ix1 i).symm
  right_inv a := rfl

/-- The host's last lines on a three-axis array of two entries: recast to two entries and added onto the
    constant zero, the result is zero plus the two entries. -/
private theorem recast_sum (x : FVec Ideal S2x1x1 .f32) (hc : S2x1x1.ShapeCasts S2) (h : S2.ReducesTo [0] S_)
    (hu : 0 < S_.numel) (j : S_.Idx) :
    Host.reduceAdd (fun i => shapeCast S2 x hc i) (constant (F := Ideal) S_ .f32 0x00000000#32) h hu j
      = 0 + ∑ q : Fin 2, x (ix3 q 0 0) := by
  show Ideal.hostReduceAdd h (fun i => shapeCast S2 x hc i) (Ideal.ofBits .f32 0x00000000#32) j = _
  rw [Ideal.hostReduceAdd_total h (fun b => b.elim0), Ideal.ofBits_zero_f32]
  refine congrArg (fun s => (0 : EReal) + s) ?_
  rw [← Equiv.sum_comp (idxEquiv1 (n := 2)).symm]
  refine Finset.sum_congr rfl fun q _ => ?_
  show shapeCast S2 x hc (ix1 q) = x (ix3 q 0 0)
  refine shapeCast_apply x hc (ix1 q) (ix3 q 0 0) ?_
  rw [Shape.rowMajor_val_three, Shape.rowMajor_val_one]
  show ((q.val * 1 + 0) * 1 + 0) = q.val
  omega

/-- THE HOST LINES AFTER THE REGION leave the result in the result buffer. -/
theorem tail_eq (c : Dev nD) (hR : RealTables m c) :
    Pipeline.afterTail₀ cfgs (dats m) 0 (V0 m) [hostOps1] c main_v20
      = fun _ => resultOf (a0 m c) (a1 m c) (a2 m c) (a3 m c) (a4 m c) (a5 m c) (a6 m c) := by
  unfold Pipeline.afterTail₀
  show StableHlo.after hostOps1 _ (Proc.devRef .tc main_v20) = _
  after_results
  have hA : Pipeline.withArrays (cfgs 0).spec c (V0 m c) (fun w => (dats m 0 c).arrAt w (cfgs 0).N)
      (Proc.tc.devRef main_v18) = halves m c :=
    (Pipeline.withArrays_arr spec0 launch0.win.arr_inj c _ _ 6).trans (final6 m c hR)
  rw [hA]
  funext j
  refine (recast_sum (halves m c) _ _ _ j).trans ?_
  show 0 + ∑ q : Fin 2, accAt (termOf m c) q.val 1220 = _
  rw [tiled_eq_result]
  rfl

/-- THE KERNEL'S RUN: every weakly fair execution ends with the result buffer at the result and the argument
    arrays unchanged. -/
theorem run_value (hR : ∀ c, RealTables m c) :
    θ_run defs (onTc (τ := τ) (main (F := Ideal))) ⟨m, fun _ => 0, ρ⟩ (fun r => ∀ c : Dev nD,
      r.2.mem ((c.tc : Thread nD τ).loc main_v20)
          = (fun _ => resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  exact (θ_run defs _ _).mono (fun r h c =>
    ⟨((h c).2 main_v20 (Pipeline.mem_restRefs_of main_v20 (by decide) (by decide))).trans (tail_eq m c (hR c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Final

end
-- ==== Proof.RefValue.lean ====
/-
  The reference's result as the one function of the argument arrays.

  The reference reads each table at the pair's word by a gather whose index is first wrapped (a negative word
  has the table's length added) and then clamped into the table. For a word that is inside the table as an
  unsigned number neither step changes it, and the gather reads the entry; the scaling, the logistic (spelt
  out as one over one plus the exponential of the negated logit), the clipping, the two logarithms and the
  two products are then the pair's term, and the host sum adds the terms onto zero.
-/
import proofs.«427744_j82815559401913_4_alg».proof.Proof.Gen.ReferenceIdeal.Run
import proofs.«427744_j82815559401913_4_alg».proof.Proof.Gen.ReferenceIdeal.Read
import proofs.«427744_j82815559401913_4_alg».proof.Proof.Spec
import Idealize.ShloMosaic.Lib.StableHlo.Predicate
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.LogLik

open Idealize.ShloMosaic.StableHlo.Predicate

/-! ## Words -/

/-- The word for one is the extended real one. -/
private theorem one_f32 : Ideal.ofBits .f32 0x3F800000#32 = 1 := by
  rw [show (1 : EReal) = ((1 : ℝ) : EReal) by norm_cast]
  simp [Ideal.ofBits, Ideal.ieee, -EReal.coe_mul]; norm_num

/-- A word that is not negative is left alone by the wrap: the comparison with zero fails and the select keeps it. -/
private theorem wrap (N w : BitVec 32) (hw : w.toNat < 2 ^ 31) :
    Scalar.select (IntOp.cmpi .slt w 0#32) (IntOp.addi w N) w = w := by
  have h : ¬ IntOp.cmpi .slt w 0#32 = 1#1 := by
    rw [slt_iff_toNat hw (by decide)]
    simp
  exact if_neg h

/-- The rank-1 index at a position, in its two spellings. -/
private theorem ix1_eq_ofFin {n : Nat} (k : Fin n) : (ix1 k : (⟨1, ![n]⟩ : Shape).Idx) = Shape.Idx.ofFin k := by
  funext d
  match d with
  | ⟨0, _⟩ => rfl

/-- Row `n` of the column of start indices is read from position `n` of the words. -/
private theorem idx5_ixP (n : Fin 10000000) : idx_main_v5 (ixP n) = ix1 n := by
  funext d
  match d with
  | ⟨0, _⟩ => rfl

/-- The wrapped word of pair `n` is the word itself. -/
private theorem v4_eq (x5 : IVec S10000000 32) (hb : ∀ i, (x5 i).toNat < 5000) (i : S10000000.Idx) :
    val_main_v4 (F := Ideal) x5 i = x5 i := by
  rw [val_main_v4_apply, val_main_v1_apply, val_main_v3_apply, val_main_v0_apply, val_main_c_apply,
    val_main_v2_apply, val_main_c_0_apply]
  exact wrap _ _ (by have := hb i; omega)

/-- The first gather reads the first table at the pair's first word: the wrap and the clamp leave a word inside the
    table alone, and a word below 2³¹ reads the same signed and unsigned. -/
private theorem take1 (x0 : FVec Ideal S5000 .f32) (x5 : IVec S10000000 32) (hb : ∀ i, (x5 i).toNat < 5000)
    (n : Fin 10000000) :
    val_main_v6 (F := Ideal) x0 x5 (ix1 n) = tblAt (fun j => x0 (ix1 j)) (x5 (ix1 n)) := by
  have hw := hb (ix1 n)
  have hidx : val_main_v5 (F := Ideal) x5 (ixP n) = x5 (ix1 n) := by
    rw [val_main_v5_apply, idx5_ixP, v4_eq x5 hb]
  unfold val_main_v6
  refine ((congrArg _ (ix1_eq_ofFin n)).trans (gather_take _ rfl rfl rfl rfl x0 _ n (by norm_num))).trans ?_
  unfold tblAt
  rw [dif_pos hw, ← ix1_eq_ofFin]
  show x0 (ix1 _) = x0 (ix1 _)
  congr 2
  apply Fin.ext
  show min (val_main_v5 (F := Ideal) x5 (ixP n)).toInt.toNat (5000 - 1) = (x5 (ix1 n)).toNat
  rw [hidx, toInt_eq_toNat_of_lt (by omega), Int.toNat_natCast]
  omega

/-- Row `n` of the second column of start indices is read from position `n` of the words. -/
private theorem idx12_ixP (n : Fin 10000000) : idx_main_v12 (ixP n) = ix1 n := by
  funext d
  match d with
  | ⟨0, _⟩ => rfl

/-- The wrapped second word of pair `n` is the word itself. -/
private theorem v11_eq (x6 : IVec S10000000 32) (hp : ∀ i, (x6 i).toNat < 2000) (i : S10000000.Idx) :
    val_main_v11 (F := Ideal) x6 i = x6 i := by
  rw [val_main_v11_apply, val_main_v8_apply, val_main_v10_apply, val_main_v7_apply, val_main_c_1_apply,
    val_main_v9_apply, val_main_c_2_apply]
  exact wrap _ _ (by have := hp i; omega)

/-- The second gather reads the second table at the pair's second word. -/
private theorem take2 (x1 : FVec Ideal S2000 .f32) (x6 : IVec S10000000 32) (hp : ∀ i, (x6 i).toNat < 2000)
    (n : Fin 10000000) :
    val_main_v13 (F := Ideal) x1 x6 (ix1 n) = tblAt (fun j => x1 (ix1 j)) (x6 (ix1 n)) := by
  have hw := hp (ix1 n)
  have hidx : val_main_v12 (F := Ideal) x6 (ixP n) = x6 (ix1 n) := by
    rw [val_main_v12_apply, idx12_ixP, v11_eq x6 hp]
  unfold val_main_v13
  refine ((congrArg _ (ix1_eq_ofFin n)).trans (gather_take _ rfl rfl rfl rfl x1 _ n (by norm_num))).trans ?_
  unfold tblAt
  rw [dif_pos hw, ← ix1_eq_ofFin]
  show x1 (ix1 _) = x1 (ix1 _)
  congr 2
  apply Fin.ext
  show min (val_main_v12 (F := Ideal) x6 (ixP n)).toInt.toNat (2000 - 1) = (x6 (ix1 n)).toNat
  rw [hidx, toInt_eq_toNat_of_lt (by omega), Int.toNat_natCast]
  omega

/-! ## One pair -/

/-- The mixing weight is the one entry of its array: the reshape to a scalar reads position zero. -/
private theorem v14_eq (x2 : FVec Ideal S1 .f32) (i : S_.Idx) : val_main_v14 (F := Ideal) x2 i = x2 (ix1 0) := by
  unfold val_main_v14
  apply shapeCast_apply x2 shapeCasts_S1_S_ i (ix1 0)
  have h2 := (S_.rowMajor i).isLt
  have e2 : S_.numel = 1 := Shape.numel_eq_one (fun a => a.elim0)
  rw [Shape.rowMajor_val_one]
  show 0 = _
  omega

/-- The pair's logit, as the reference computes it from the two gathers. -/
private theorem v20_eq (x0 : FVec Ideal S5000 .f32) (x1 : FVec Ideal S2000 .f32) (x2 : FVec Ideal S1 .f32)
    (x5 x6 : IVec S10000000 32) (hb : ∀ i, (x5 i).toNat < 5000) (hp : ∀ i, (x6 i).toNat < 2000)
    (n : Fin 10000000) :
    val_main_v20 (F := Ideal) x0 x1 x2 x5 x6 (ix1 n)
      = logit (x2 (ix1 0)) (fun j => x0 (ix1 j)) (fun j => x1 (ix1 j)) (x5 (ix1 n)) (x6 (ix1 n)) := by
  rw [val_main_v20_apply, val_main_v16_apply, val_main_v19_apply, val_main_v15_apply, val_main_v18_apply,
    val_main_v17_apply, val_main_cst_apply, v14_eq, take1 x0 x5 hb n, take2 x1 x6 hp n]
  simp only [Ideal.addf_def, Ideal.mulf_def, Ideal.subf_def, Ideal.ofBits_def]
  rfl

/-- The pair's clipped probability: the spelt-out logistic of the logit, through the outlined clip. -/
private theorem v27_eq (x0 : FVec Ideal S5000 .f32) (x1 : FVec Ideal S2000 .f32) (x2 : FVec Ideal S1 .f32)
    (x5 x6 : IVec S10000000 32) (hb : ∀ i, (x5 i).toNat < 5000) (hp : ∀ i, (x6 i).toNat < 2000)
    (n : Fin 10000000) :
    val_main_v27 (F := Ideal) x0 x1 x2 x5 x6 (ix1 n)
      = clipP (logit (x2 (ix1 0)) (fun j => x0 (ix1 j)) (fun j => x1 (ix1 j)) (x5 (ix1 n)) (x6 (ix1 n))) := by
  rw [val_main_v27_apply, val_main_call0_v4_apply, val_main_call0_v3_apply, val_main_cst_6_apply,
    val_main_call0_v2_apply, val_main_call0_v1_apply, val_main_call0_v0_apply, val_main_cst_5_apply,
    val_main_v26_apply, val_main_v25_apply, val_main_cst_4_apply, val_main_v24_apply, val_main_v23_apply,
    val_main_cst_3_apply, val_main_v22_apply, val_main_v21_apply, v20_eq x0 x1 x2 x5 x6 hb hp n]
  simp only [Ideal.minimumf_def, Ideal.maximumf_def, Ideal.hostDivf_def, Ideal.addf_def, Ideal.hostUnary_exp_def,
    Ideal.hostNegf_def, Ideal.negf_def, Ideal.ofBits_def, one_f32]
  rfl

/-- The reference's term of pair `n` is the pair's log-likelihood. -/
private theorem pair (x0 : FVec Ideal S5000 .f32) (x1 : FVec Ideal S2000 .f32) (x2 : FVec Ideal S1 .f32)
    (x3 x4 : FVec Ideal S10000000 .f32) (x5 x6 : IVec S10000000 32)
    (hb : ∀ i, (x5 i).toNat < 5000) (hp : ∀ i, (x6 i).toNat < 2000) (n : Fin 10000000) :
    val_main_v33 (F := Ideal) x0 x1 x2 x3 x4 x5 x6 (ix1 n)
      = pairLL (x3 (ix1 n)) (x4 (ix1 n))
          (logit (x2 (ix1 0)) (fun j => x0 (ix1 j)) (fun j => x1 (ix1 j)) (x5 (ix1 n)) (x6 (ix1 n))) := by
  rw [val_main_v33_apply, val_main_v29_apply, val_main_v32_apply, val_main_v28_apply, val_main_v31_apply,
    val_main_v30_apply, v27_eq x0 x1 x2 x5 x6 hb hp n]
  simp only [Ideal.addf_def, Ideal.mulf_def, Ideal.hostUnary_log_def, Ideal.hostUnary_log1p_def,
    Ideal.hostNegf_def, Ideal.negf_def]
  unfold pairLL
  rw [zero_sub]

/-! ## The sum -/

/-- A rank-1 index set is its one coordinate's range. -/
private def idxEquiv1 {n : Nat} : (⟨1, ![n]⟩ : Shape).Idx ≃ Fin n where
  toFun i := i 0
  invFun a := ix1 a
  left_inv i := (eq_ix1 i).symm
  right_inv _ := rfl

/-- The reference's last stage is the result, once every word is inside its table. -/
theorem result_eq (x0 : FVec Ideal S5000 .f32) (x1 : FVec Ideal S2000 .f32) (x2 : FVec Ideal S1 .f32)
    (x3 x4 : FVec Ideal S10000000 .f32) (x5 x6 : IVec S10000000 32)
    (hb : ∀ i, (x5 i).toNat < 5000) (hp : ∀ i, (x6 i).toNat < 2000) :
    val_main_v34 (F := Ideal) x0 x1 x2 x3 x4 x5 x6
      = fun _ => result (x2 (ix1 0)) (fun j => x0 (ix1 j)) (fun j => x1 (ix1 j)) (fun n => x3 (ix1 n)) (fun n => x4 (ix1 n))
          (fun n => x5 (ix1 n)) (fun n => x6 (ix1 n)) := by
  funext i
  have hsum : ∑ j : S10000000.Idx, val_main_v33 (F := Ideal) x0 x1 x2 x3 x4 x5 x6 j
      = ∑ n : Fin 10000000, pairLL (x3 (ix1 n)) (x4 (ix1 n))
          (logit (x2 (ix1 0)) (fun j => x0 (ix1 j)) (fun j => x1 (ix1 j)) (x5 (ix1 n)) (x6 (ix1 n))) := by
    rw [← Equiv.sum_comp (idxEquiv1 (n := 10000000)).symm]
    exact Finset.sum_congr rfl (fun n _ => pair x0 x1 x2 x3 x4 x5 x6 hb hp n)
  unfold result
  rw [val_main_v34_apply, val_main_cst_7_apply, Ideal.ofBits_def, Ideal.ofBits_zero_f32, hsum]

end Cert.ReferenceIdeal.RefValue

end
-- ==== Proof.lean ====
/- The certificate's five claims.

   The kernel computes, for ten million (batter, pitcher) pairs, the log-likelihood
   `∑ e1 · log p + e2 · log1p (−p)`, `p` the clipped logistic of `w · v1[b] + (1 − w) · v2[p]`. It scales and
   pads the two strength tables on the host, streams the pairs through a 2 × 1221 grid in blocks of 32 rows of
   128, reads each table by comparing the pair's word against every table position and adding up the entries
   where they agree, and accumulates each half's terms in a carried scalar that the host finally adds up. The
   reference gathers the two table entries, forms the same term and adds all of them at once.

   Over the extended reals the two agree wherever every word is inside its table and the tables and the weight
   hold real numbers (the statement's precondition): a comparison-read of a table is the entry (Proof/Spec.lean,
   `sum_onehot`), the row-minus-itself correction the kernel adds is zero for real entries, a padded pair has
   both event weights zero and contributes nothing, and a sum of terms does not depend on how it is tiled
   (`tiled_eq_result`). The kernel's value is read off the generated frame run: the loop's trips and each
   case's stored pieces (Proof/LoopValue.lean), one tile's arithmetic (Proof/TileValue.lean), the input blocks
   as functions of the arguments (Proof/HostIn.lean), the accumulator point by point (Proof/Accum.lean), the
   output array and the host's last lines (Proof/Final.lean). The reference's value is its generated run read
   stage by stage (Proof/RefValue.lean). The three frames are the generated ones; the idealization's six ledger
   entries are the rounding rule's statement at their shapes. -/
import proofs.«427744_j82815559401913_4_alg».proof.Defs
import proofs.«427744_j82815559401913_4_alg».proof.Proof.Gen.Kernel
import proofs.«427744_j82815559401913_4_alg».proof.Proof.Gen.Kernel.Skeleton
import proofs.«427744_j82815559401913_4_alg».proof.Proof.Gen.Kernel.Loops
import proofs.«427744_j82815559401913_4_alg».proof.Proof.Gen.Kernel.Launch
import proofs.«427744_j82815559401913_4_alg».proof.Proof.Gen.Kernel.Points
import proofs.«427744_j82815559401913_4_alg».proof.Proof.Gen.Kernel.Frame
import proofs.«427744_j82815559401913_4_alg».proof.Proof.Gen.KernelIdeal
import proofs.«427744_j82815559401913_4_alg».proof.Proof.Gen.KernelIdeal.Skeleton
import proofs.«427744_j82815559401913_4_alg».proof.Proof.Gen.KernelIdeal.Loops
import proofs.«427744_j82815559401913_4_alg».proof.Proof.Gen.KernelIdeal.Launch
import proofs.«427744_j82815559401913_4_alg».proof.Proof.Gen.KernelIdeal.Points
import proofs.«427744_j82815559401913_4_alg».proof.Proof.Gen.KernelIdeal.Frame
import proofs.«427744_j82815559401913_4_alg».proof.Proof.Gen.ReferenceIdeal
import proofs.«427744_j82815559401913_4_alg».proof.Proof.Gen.ReferenceIdeal.Run
import proofs.«427744_j82815559401913_4_alg».proof.Proof.Gen.ReferenceIdeal.Read
import proofs.«427744_j82815559401913_4_alg».proof.Proof.Gen.Pre_finite_inputs
import proofs.«427744_j82815559401913_4_alg».proof.Proof.Pre
import proofs.«427744_j82815559401913_4_alg».proof.Proof.Final
import proofs.«427744_j82815559401913_4_alg».proof.Proof.RefValue
import Idealize.ShloMosaic.Adequacy
import Idealize.ShloMosaic.Init

noncomputable section

namespace Cert.Proof

open Idealize.ShloMosaic Idealize.ShloMosaic.ValueIdx Idealize.SL.Sem Cert.LogLik

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Each of the six narrow-then-widen windows the idealization dropped is the identity on extended reals and
    the rounding through the narrow format on words. -/
theorem preserves : Cert.preserves_Kernel_KernelIdeal :=
  ⟨IdealRules.truncf_extf.statement Cert.KernelIdeal.S1x5120 .f32 .bf16,
   IdealRules.truncf_extf.statement Cert.KernelIdeal.S1x2048 .f32 .bf16,
   IdealRules.truncf_extf.statement Cert.KernelIdeal.S8x128 .f32 .bf16,
   IdealRules.truncf_extf.statement Cert.KernelIdeal.S8x128 .f32 .bf16,
   IdealRules.truncf_extf.statement Cert.KernelIdeal.S8x128 .f32 .bf16,
   IdealRules.truncf_extf.statement Cert.KernelIdeal.S8x128 .f32 .bf16⟩

/-- Both programs end at the one result of the argument arrays: the kernel's run by the tiled accumulation, the
    reference's by its stages, on arrays that agree. -/
theorem algebraic : Cert.algebraic_KernelIdeal_ReferenceIdeal := by
  intro m ρ m' ρ' hpre hagree
  have hD := fun c => inDomain_of_pre _ _ _ _ _ _ _ (hpre c)
  refine ⟨fun c => (fun _ => resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))),
    Cert.KernelIdeal.Final.run_value m ρ (fun c => ⟨(hD c).w_real (ix1 0), fun j => (hD c).v1_real (ix1 j), fun j => (hD c).v2_real (ix1 j)⟩), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2.1, (hagree c).2.2.1, (hagree c).2.2.2.1,
    (hagree c).2.2.2.2.1, (hagree c).2.2.2.2.2.1, (hagree c).2.2.2.2.2.2]
  exact Cert.ReferenceIdeal.RefValue.result_eq _ _ _ _ _ _ _ (hD c).b_lt (hD c).p_lt

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
